-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S600000x64 : Shape := ⟨2, ![600000, 64]⟩
abbrev S400000x64 : Shape := ⟨2, ![400000, 64]⟩
abbrev S2000000 : Shape := ⟨1, ![2000000]⟩
abbrev S_ : Shape := ⟨0, ![]⟩

class Facts : Prop where
  bcast_S_S600000x64 : S_.BroadcastsInDim S600000x64 (![] : Fin 0 → Fin S600000x64.rank)
  reducesTo_S600000x64_S_d0_1 : S600000x64.ReducesTo [0, 1] S_
  h_S_ : 0 < S_.numel
  bcast_S_S400000x64 : S_.BroadcastsInDim S400000x64 (![] : Fin 0 → Fin S400000x64.rank)
  reducesTo_S400000x64_S_d0_1 : S400000x64.ReducesTo [0, 1] S_

variable [Facts]

def fn {F : FTy → Type} [FloatOps F] (main_arg0 : FVec F S600000x64 .f32) (main_arg1 : FVec F S400000x64 .f32) (main_arg2 : IVec S2000000 32) (main_arg3 : IVec S2000000 32) : IVec S_ 1 :=
  let main_v0 : FVec F S600000x64 .f32 := Host.absf main_arg0
  let main_cst : FVec F S_ .f32 := constant S_ .f32 0x7F800000#32
  let main_v1 : FVec F S600000x64 .f32 := broadcastInDim S600000x64 ![] bcast_S_S600000x64 main_cst
  let main_v2 : IVec S600000x64 1 := cmpf .olt main_v0 main_v1
  let main_c : IVec S_ 1 := constantI S_ 1 1#1
  let main_v3 : IVec S_ 1 := (fun x v => Host.reduce IntOp.andi x v reducesTo_S600000x64_S_d0_1 h_S_) main_v2 main_c
  let main_v4 : FVec F S400000x64 .f32 := Host.absf main_arg1
  let main_cst_0 : FVec F S_ .f32 := constant S_ .f32 0x7F800000#32
  let main_v5 : FVec F S400000x64 .f32 := broadcastInDim S400000x64 ![] bcast_S_S400000x64 main_cst_0
  let main_v6 : IVec S400000x64 1 := cmpf .olt main_v4 main_v5
  let main_c_1 : IVec S_ 1 := constantI S_ 1 1#1
  let main_v7 : IVec S_ 1 := (fun x v => Host.reduce IntOp.andi x v reducesTo_S400000x64_S_d0_1 h_S_) main_v6 main_c_1
  let main_v8 : IVec S_ 1 := andi main_v3 main_v7
  main_v8
-- ==== Kernel.lean ====
abbrev S600000x64 : Shape := ⟨2, ![600000, 64]⟩
abbrev S400000x64 : Shape := ⟨2, ![400000, 64]⟩
abbrev S2000000 : Shape := ⟨1, ![2000000]⟩
abbrev S_ : Shape := ⟨0, ![]⟩
abbrev S4000000 : Shape := ⟨1, ![4000000]⟩
abbrev S1000000 : Shape := ⟨1, ![1000000]⟩
abbrev S4000000x1 : Shape := ⟨2, ![4000000, 1]⟩
abbrev S5888 : Shape := ⟨1, ![5888]⟩
abbrev S4005888 : Shape := ⟨1, ![4005888]⟩
abbrev S4005888x1 : Shape := ⟨2, ![4005888, 1]⟩
abbrev S1000000x64 : Shape := ⟨2, ![1000000, 64]⟩
abbrev S4005888x64 : Shape := ⟨2, ![4005888, 64]⟩
abbrev S8192x64 : Shape := ⟨2, ![8192, 64]⟩
abbrev S8192x1 : Shape := ⟨2, ![8192, 1]⟩
abbrev S8000x64 : Shape := ⟨2, ![8000, 64]⟩

abbrev nBuf : Space → Nat
  | .hbm => 100
  | .vmem => 40
  | .smem => 0
  | _ => 0

abbrev bufTy : (tb : Table) → Fin (tcTables nBuf tb) → BufTy
  | .hbm, ⟨0, _⟩ => ⟨S600000x64, .f32⟩
  | .hbm, ⟨1, _⟩ => ⟨S400000x64, .f32⟩
  | .hbm, ⟨2, _⟩ => ⟨S2000000, .i32⟩
  | .hbm, ⟨3, _⟩ => ⟨S2000000, .i32⟩
  | .hbm, ⟨4, _⟩ => ⟨S_, .i32⟩
  | .hbm, ⟨5, _⟩ => ⟨S2000000, .i32⟩
  | .hbm, ⟨6, _⟩ => ⟨S2000000, .i32⟩
  | .hbm, ⟨7, _⟩ => ⟨S4000000, .i32⟩
  | .hbm, ⟨8, _⟩ => ⟨S_, .i32⟩
  | .hbm, ⟨9, _⟩ => ⟨S2000000, .i32⟩
  | .hbm, ⟨10, _⟩ => ⟨S2000000, .i32⟩
  | .hbm, ⟨11, _⟩ => ⟨S4000000, .i32⟩
  | .hbm, ⟨12, _⟩ => ⟨S_, .f32⟩
  | .hbm, ⟨13, _⟩ => ⟨S4000000, .f32⟩
  | .hbm, ⟨14, _⟩ => ⟨S_, .f32⟩
  | .hbm, ⟨15, _⟩ => ⟨S1000000, .f32⟩
  | .hbm, ⟨16, _⟩ => ⟨S4000000x1, .i32⟩
  | .hbm, ⟨17, _⟩ => ⟨S1000000, .f32⟩
  | .hbm, ⟨18, _⟩ => ⟨S_, .f32⟩
  | .hbm, ⟨19, _⟩ => ⟨S1000000, .f32⟩
  | .hbm, ⟨20, _⟩ => ⟨S1000000, .f32⟩
  | .hbm, ⟨21, _⟩ => ⟨S_, .f32⟩
  | .hbm, ⟨22, _⟩ => ⟨S1000000, .f32⟩
  | .hbm, ⟨23, _⟩ => ⟨S1000000, .f32⟩
  | .hbm, ⟨24, _⟩ => ⟨S_, .i32⟩
  | .hbm, ⟨25, _⟩ => ⟨S4000000, .i32⟩
  | .hbm, ⟨26, _⟩ => ⟨S4000000, .i1⟩
  | .hbm, ⟨27, _⟩ => ⟨S_, .i32⟩
  | .hbm, ⟨28, _⟩ => ⟨S4000000, .i32⟩
  | .hbm, ⟨29, _⟩ => ⟨S4000000, .i32⟩
  | .hbm, ⟨30, _⟩ => ⟨S4000000, .i32⟩
  | .hbm, ⟨31, _⟩ => ⟨S4000000x1, .i32⟩
  | .hbm, ⟨32, _⟩ => ⟨S4000000, .f32⟩
  | .hbm, ⟨33, _⟩ => ⟨S_, .i32⟩
  | .hbm, ⟨34, _⟩ => ⟨S4000000, .i32⟩
  | .hbm, ⟨35, _⟩ => ⟨S4000000, .i1⟩
  | .hbm, ⟨36, _⟩ => ⟨S_, .i32⟩
  | .hbm, ⟨37, _⟩ => ⟨S4000000, .i32⟩
  | .hbm, ⟨38, _⟩ => ⟨S4000000, .i32⟩
  | .hbm, ⟨39, _⟩ => ⟨S4000000, .i32⟩
  | .hbm, ⟨40, _⟩ => ⟨S4000000x1, .i32⟩
  | .hbm, ⟨41, _⟩ => ⟨S4000000, .f32⟩
  | .hbm, ⟨42, _⟩ => ⟨S4000000, .f32⟩
  | .hbm, ⟨43, _⟩ => ⟨S_, .i32⟩
  | .hbm, ⟨44, _⟩ => ⟨S5888, .i32⟩
  | .hbm, ⟨45, _⟩ => ⟨S_, .f32⟩
  | .hbm, ⟨46, _⟩ => ⟨S5888, .f32⟩
  | .hbm, ⟨47, _⟩ => ⟨S4005888, .i32⟩
  | .hbm, ⟨48, _⟩ => ⟨S4005888, .i32⟩
  | .hbm, ⟨49, _⟩ => ⟨S4005888, .f32⟩
  | .hbm, ⟨50, _⟩ => ⟨S4005888x1, .f32⟩
  | .hbm, ⟨51, _⟩ => ⟨S1000000x64, .f32⟩
  | .hbm, ⟨52, _⟩ => ⟨S_, .i32⟩
  | .hbm, ⟨53, _⟩ => ⟨S4005888, .i32⟩
  | .hbm, ⟨54, _⟩ => ⟨S4005888, .i1⟩
  | .hbm, ⟨55, _⟩ => ⟨S_, .i32⟩
  | .hbm, ⟨56, _⟩ => ⟨S4005888, .i32⟩
  | .hbm, ⟨57, _⟩ => ⟨S4005888, .i32⟩
  | .hbm, ⟨58, _⟩ => ⟨S4005888, .i32⟩
  | .hbm, ⟨59, _⟩ => ⟨S4005888x1, .i32⟩
  | .hbm, ⟨60, _⟩ => ⟨S4005888x64, .f32⟩
  | .hbm, ⟨61, _⟩ => ⟨S4005888x64, .f32⟩
  | .hbm, ⟨62, _⟩ => ⟨S_, .f32⟩
  | .hbm, ⟨63, _⟩ => ⟨S1000000x64, .f32⟩
  | .hbm, ⟨64, _⟩ => ⟨S4005888x1, .i32⟩
  | .hbm, ⟨65, _⟩ => ⟨S1000000x64, .f32⟩
  | .hbm, ⟨66, _⟩ => ⟨S1000000x64, .f32⟩
  | .hbm, ⟨67, _⟩ => ⟨S_, .i32⟩
  | .hbm, ⟨68, _⟩ => ⟨S4005888, .i32⟩
  | .hbm, ⟨69, _⟩ => ⟨S4005888, .i1⟩
  | .hbm, ⟨70, _⟩ => ⟨S_, .i32⟩
  | .hbm, ⟨71, _⟩ => ⟨S4005888, .i32⟩
  | .hbm, ⟨72, _⟩ => ⟨S4005888, .i32⟩
  | .hbm, ⟨73, _⟩ => ⟨S4005888, .i32⟩
  | .hbm, ⟨74, _⟩ => ⟨S4005888x1, .i32⟩
  | .hbm, ⟨75, _⟩ => ⟨S4005888x64, .f32⟩
  | .hbm, ⟨76, _⟩ => ⟨S4005888x64, .f32⟩
  | .hbm, ⟨77, _⟩ => ⟨S_, .f32⟩
  | .hbm, ⟨78, _⟩ => ⟨S1000000x64, .f32⟩
  | .hbm, ⟨79, _⟩ => ⟨S4005888x1, .i32⟩
  | .hbm, ⟨80, _⟩ => ⟨S1000000x64, .f32⟩
  | .hbm, ⟨81, _⟩ => ⟨S1000000x64, .f32⟩
  | .hbm, ⟨82, _⟩ => ⟨S_, .i32⟩
  | .hbm, ⟨83, _⟩ => ⟨S4005888, .i32⟩
  | .hbm, ⟨84, _⟩ => ⟨S4005888, .i1⟩
  | .hbm, ⟨85, _⟩ => ⟨S_, .i32⟩
  | .hbm, ⟨86, _⟩ => ⟨S4005888, .i32⟩
  | .hbm, ⟨87, _⟩ => ⟨S4005888, .i32⟩
  | .hbm, ⟨88, _⟩ => ⟨S4005888, .i32⟩
  | .hbm, ⟨89, _⟩ => ⟨S4005888x1, .i32⟩
  | .hbm, ⟨90, _⟩ => ⟨S4005888x64, .f32⟩
  | .hbm, ⟨91, _⟩ => ⟨S4005888x64, .f32⟩
  | .hbm, ⟨92, _⟩ => ⟨S_, .f32⟩
  | .hbm, ⟨93, _⟩ => ⟨S1000000x64, .f32⟩
  | .hbm, ⟨94, _⟩ => ⟨S4005888x1, .i32⟩
  | .hbm, ⟨95, _⟩ => ⟨S1000000x64, .f32⟩
  | .hbm, ⟨96, _⟩ => ⟨S1000000x64, .f32⟩
  | .hbm, ⟨97, _⟩ => ⟨S1000000x64, .f32⟩
  | .hbm, ⟨98, _⟩ => ⟨S600000x64, .f32⟩
  | .hbm, ⟨99, _⟩ => ⟨S400000x64, .f32⟩
  | .local _ .vmem, ⟨0, _⟩ => ⟨S8192x64, .f32⟩
  | .local _ .vmem, ⟨1, _⟩ => ⟨S8192x64, .f32⟩
  | .local _ .vmem, ⟨2, _⟩ => ⟨S8192x1, .f32⟩
  | .local _ .vmem, ⟨3, _⟩ => ⟨S8192x1, .f32⟩
  | .local _ .vmem, ⟨4, _⟩ => ⟨S8192x64, .f32⟩
  | .local _ .vmem, ⟨5, _⟩ => ⟨S8192x64, .f32⟩
  | .local _ .vmem, ⟨6, _⟩ => ⟨S8000x64, .f32⟩
  | .local _ .vmem, ⟨7, _⟩ => ⟨S8000x64, .f32⟩
  | .local _ .vmem, ⟨8, _⟩ => ⟨S8000x64, .f32⟩
  | .local _ .vmem, ⟨9, _⟩ => ⟨S8000x64, .f32⟩
  | .local _ .vmem, ⟨10, _⟩ => ⟨S8000x64, .f32⟩
  | .local _ .vmem, ⟨11, _⟩ => ⟨S8000x64, .f32⟩
  | .local _ .vmem, ⟨12, _⟩ => ⟨S8192x64, .f32⟩
  | .local _ .vmem, ⟨13, _⟩ => ⟨S8192x64, .f32⟩
  | .local _ .vmem, ⟨14, _⟩ => ⟨S8192x1, .f32⟩
  | .local _ .vmem, ⟨15, _⟩ => ⟨S8192x1, .f32⟩
  | .local _ .vmem, ⟨16, _⟩ => ⟨S8192x64, .f32⟩
  | .local _ .vmem, ⟨17, _⟩ => ⟨S8192x64, .f32⟩
  | .local _ .vmem, ⟨18, _⟩ => ⟨S8000x64, .f32⟩
  | .local _ .vmem, ⟨19, _⟩ => ⟨S8000x64, .f32⟩
  | .local _ .vmem, ⟨20, _⟩ => ⟨S8000x64, .f32⟩
  | .local _ .vmem, ⟨21, _⟩ => ⟨S8000x64, .f32⟩
  | .local _ .vmem, ⟨22, _⟩ => ⟨S8000x64, .f32⟩
  | .local _ .vmem, ⟨23, _⟩ => ⟨S8000x64, .f32⟩
  | .local _ .vmem, ⟨24, _⟩ => ⟨S8192x64, .f32⟩
  | .local _ .vmem, ⟨25, _⟩ => ⟨S8192x64, .f32⟩
  | .local _ .vmem, ⟨26, _⟩ => ⟨S8192x1, .f32⟩
  | .local _ .vmem, ⟨27, _⟩ => ⟨S8192x1, .f32⟩
  | .local _ .vmem, ⟨28, _⟩ => ⟨S8192x64, .f32⟩
  | .local _ .vmem, ⟨29, _⟩ => ⟨S8192x64, .f32⟩
  | .local _ .vmem, ⟨30, _⟩ => ⟨S8000x64, .f32⟩
  | .local _ .vmem, ⟨31, _⟩ => ⟨S8000x64, .f32⟩
  | .local _ .vmem, ⟨32, _⟩ => ⟨S8000x64, .f32⟩
  | .local _ .vmem, ⟨33, _⟩ => ⟨S8000x64, .f32⟩
  | .local _ .vmem, ⟨34, _⟩ => ⟨S8000x64, .f32⟩
  | .local _ .vmem, ⟨35, _⟩ => ⟨S8000x64, .f32⟩
  | .local _ .vmem, ⟨36, _⟩ => ⟨S8000x64, .f32⟩
  | .local _ .vmem, ⟨37, _⟩ => ⟨S8000x64, .f32⟩
  | .local _ .vmem, ⟨38, _⟩ => ⟨S8000x64, .f32⟩
  | .local _ .vmem, ⟨39, _⟩ => ⟨S8000x64, .f32⟩
  | _, _ => ⟨S600000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_c_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_c_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_8 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_10 : Ref sig .tc := ⟨.hbm, 52, rfl⟩
abbrev main_v36 : Ref sig .tc := ⟨.hbm, 53, rfl⟩
abbrev main_v37 : Ref sig .tc := ⟨.hbm, 54, rfl⟩
abbrev main_c_11 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_12 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_13 : Ref sig .tc := ⟨.hbm, 67, rfl⟩
abbrev main_v48 : Ref sig .tc := ⟨.hbm, 68, rfl⟩
abbrev main_v49 : Ref sig .tc := ⟨.hbm, 69, rfl⟩
abbrev main_c_14 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_15 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_16 : Ref sig .tc := ⟨.hbm, 82, rfl⟩
abbrev main_v60 : Ref sig .tc := ⟨.hbm, 83, rfl⟩
abbrev main_v61 : Ref sig .tc := ⟨.hbm, 84, rfl⟩
abbrev main_c_17 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_18 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39

abbrev nD : Nat := 1
abbrev τ : Topo := Topo.v7x

variable {F : FTy → Type} [FloatOps F]

abbrev grid0 : Pipeline.Grid := ⟨1, ![489], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![489], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![489], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![125], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![125], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

class Facts₀ : Prop where
  bcast_S_S2000000 : S_.BroadcastsInDim S2000000 (![] : Fin 0 → Fin S2000000.rank)
  concatenates_S2000000_S2000000_S4000000_d0 : Shape.Concatenates [S2000000, S2000000] S4000000 0
  bcast_S_S4000000 : S_.BroadcastsInDim S4000000 (![] : Fin 0 → Fin S4000000.rank)
  bcast_S_S1000000 : S_.BroadcastsInDim S1000000 (![] : Fin 0 → Fin S1000000.rank)
  bcast_S4000000_S4000000x1_0 : S4000000.BroadcastsInDim S4000000x1 (![0] : Fin 1 → Fin S4000000x1.rank)
  bcast_S_S5888 : S_.BroadcastsInDim S5888 (![] : Fin 0 → Fin S5888.rank)
  concatenates_S4000000_S5888_S4005888_d0 : Shape.Concatenates [S4000000, S5888] S4005888 0
  bcast_S4005888_S4005888x1_0 : S4005888.BroadcastsInDim S4005888x1 (![0] : Fin 1 → Fin S4005888x1.rank)
  concatenates_S600000x64_S400000x64_S1000000x64_d0 : Shape.Concatenates [S600000x64, S400000x64] S1000000x64 0
  bcast_S_S4005888 : S_.BroadcastsInDim S4005888 (![] : Fin 0 → Fin S4005888.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x64 : S8192x1.Broadcasts S8192x64
  bcast_S_S1000000x64 : S_.BroadcastsInDim S1000000x64 (![] : Fin 0 → Fin S1000000x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  slices_S1000000x64_S600000x64_0_0 : S1000000x64.Slices ![0, 0] S600000x64
  slices_S1000000x64_S400000x64_600000_0 : S1000000x64.Slices ![600000, 0] S400000x64
  scatter_S1000000_S4000000x1_S4000000_n_0_0_1_wf : ScatterDims.WF S1000000 S4000000x1 S4000000 [] [0] [0] 1
  gather_S1000000_S4000000x1_S4000000_n_0_n_n_0_1_1_wf : GatherDims.WF S1000000 S4000000x1 S4000000 [] [0] [] [0] [] 1 ![1]
  gather_S1000000x64_S4005888x1_S4005888x64_1_0_n_n_0_1_164_wf : GatherDims.WF S1000000x64 S4005888x1 S4005888x64 [1] [0] [] [0] [] 1 ![1, 64]
  scatter_S1000000x64_S4005888x1_S4005888x64_1_0_0_1_wf : ScatterDims.WF S1000000x64 S4005888x1 S4005888x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S4005888x64.size a
  hwx0_0 : ∀ i : grid0.Coords, EltTy.bits .f32 = 32 ∨ (Rect.block (s := S4005888x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S4005888x1.size a
  hwx0_1 : ∀ i : grid0.Coords, EltTy.bits .f32 = 32 ∨ (Rect.block (s := S4005888x1) S8192x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S4005888x64.size a
  hwx0_2 : ∀ i : grid0.Coords, EltTy.bits .f32 = 32 ∨ (Rect.block (s := S4005888x64) S8192x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1000000x64.size a
  hwx1_0 : ∀ i : grid1.Coords, EltTy.bits .f32 = 32 ∨ (Rect.block (s := S1000000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S1000000x64.size a
  hwx1_1 : ∀ i : grid1.Coords, EltTy.bits .f32 = 32 ∨ (Rect.block (s := S1000000x64) S8000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S1000000x64.size a
  hwx1_2 : ∀ i : grid1.Coords, EltTy.bits .f32 = 32 ∨ (Rect.block (s := S1000000x64) S8000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S4005888x64.size a
  hwx2_0 : ∀ i : grid2.Coords, EltTy.bits .f32 = 32 ∨ (Rect.block (s := S4005888x64) S8192x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x1.size a ≤ S4005888x1.size a
  hwx2_1 : ∀ i : grid2.Coords, EltTy.bits .f32 = 32 ∨ (Rect.block (s := S4005888x1) S8192x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x64.size a ≤ S4005888x64.size a
  hwx2_2 : ∀ i : grid2.Coords, EltTy.bits .f32 = 32 ∨ (Rect.block (s := S4005888x64) S8192x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S1000000x64.size a
  hwx3_0 : ∀ i : grid3.Coords, EltTy.bits .f32 = 32 ∨ (Rect.block (s := S1000000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x64.size a ≤ S1000000x64.size a
  hwx3_1 : ∀ i : grid3.Coords, EltTy.bits .f32 = 32 ∨ (Rect.block (s := S1000000x64) S8000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x64.size a ≤ S1000000x64.size a
  hwx3_2 : ∀ i : grid3.Coords, EltTy.bits .f32 = 32 ∨ (Rect.block (s := S1000000x64) S8000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x64.size a ≤ S4005888x64.size a
  hwx4_0 : ∀ i : grid4.Coords, EltTy.bits .f32 = 32 ∨ (Rect.block (s := S4005888x64) S8192x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x1.size a ≤ S4005888x1.size a
  hwx4_1 : ∀ i : grid4.Coords, EltTy.bits .f32 = 32 ∨ (Rect.block (s := S4005888x1) S8192x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x64.size a ≤ S4005888x64.size a
  hwx4_2 : ∀ i : grid4.Coords, EltTy.bits .f32 = 32 ∨ (Rect.block (s := S4005888x64) S8192x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x64.size a ≤ S1000000x64.size a
  hwx5_0 : ∀ i : grid5.Coords, EltTy.bits .f32 = 32 ∨ (Rect.block (s := S1000000x64) S8000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x64.size a ≤ S1000000x64.size a
  hwx5_1 : ∀ i : grid5.Coords, EltTy.bits .f32 = 32 ∨ (Rect.block (s := S1000000x64) S8000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x64.size a ≤ S1000000x64.size a
  hwx5_2 : ∀ i : grid5.Coords, EltTy.bits .f32 = 32 ∨ (Rect.block (s := S1000000x64) S8000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x64.size a ≤ S1000000x64.size a
  hwx6_0 : ∀ i : grid6.Coords, EltTy.bits .f32 = 32 ∨ (Rect.block (s := S1000000x64) S8000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8000x64.size a ≤ S1000000x64.size a
  hwx6_1 : ∀ i : grid6.Coords, EltTy.bits .f32 = 32 ∨ (Rect.block (s := S1000000x64) S8000x64.size (cc6_transform_1 i) (hinb6_1 i)).WholeWords (EltTy.packing .f32)

variable [Facts₀]

def scatter_S1000000_S4000000x1_S4000000_n_0_0_1 : ScatterDims S1000000 S4000000x1 S4000000 where
  updateWindowDims := []
  insertedWindowDims := [0]
  scatterDimsToOperandDims := [0]
  indexVectorDim := 1
  wf := scatter_S1000000_S4000000x1_S4000000_n_0_0_1_wf
def gather_S1000000_S4000000x1_S4000000_n_0_n_n_0_1_1 : GatherDims S1000000 S4000000x1 S4000000 where
  offsetDims := []
  collapsedSliceDims := [0]
  operandBatchingDims := []
  startIndicesBatchingDims := []
  startIndexMap := [0]
  indexVectorDim := 1
  sliceSizes := ![1]
  wf := gather_S1000000_S4000000x1_S4000000_n_0_n_n_0_1_1_wf
def gather_S1000000x64_S4005888x1_S4005888x64_1_0_n_n_0_1_164 : GatherDims S1000000x64 S4005888x1 S4005888x64 where
  offsetDims := [1]
  collapsedSliceDims := [0]
  operandBatchingDims := []
  startIndicesBatchingDims := []
  startIndexMap := [0]
  indexVectorDim := 1
  sliceSizes := ![1, 64]
  wf := gather_S1000000x64_S4005888x1_S4005888x64_1_0_n_n_0_1_164_wf
def scatter_S1000000x64_S4005888x1_S4005888x64_1_0_0_1 : ScatterDims S1000000x64 S4005888x1 S4005888x64 where
  updateWindowDims := [1]
  insertedWindowDims := [0]
  scatterDimsToOperandDims := [0]
  indexVectorDim := 1
  wf := scatter_S1000000x64_S4005888x1_S4005888x64_1_0_0_1_wf

abbrev win0_0 : Pipeline.Window sig grid0 :=
  Pipeline.Window.ofSpec (Memref.whole main_v42) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S8000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v54) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S8192x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v55) S8192x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S8000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S8000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S8192x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v34) S8192x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v67) S8192x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v59) S8000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S8000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v71) S8000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v71) S8000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v72) S8000x64.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

class Facts : Prop extends Facts₀ where

variable [Facts]
-- ==== ReferenceIdeal.lean ====
abbrev S600000x64 : Shape := ⟨2, ![600000, 64]⟩
abbrev S400000x64 : Shape := ⟨2, ![400000, 64]⟩
abbrev S2000000 : Shape := ⟨1, ![2000000]⟩
abbrev S_ : Shape := ⟨0, ![]⟩
abbrev S4000000 : Shape := ⟨1, ![4000000]⟩
abbrev S1000000 : Shape := ⟨1, ![1000000]⟩
abbrev S4000000x1 : Shape := ⟨2, ![4000000, 1]⟩
abbrev S1000000x64 : Shape := ⟨2, ![1000000, 64]⟩
abbrev S4000000x64 : Shape := ⟨2, ![4000000, 64]⟩

abbrev nBuf : Space → Nat
  | .hbm => 100
  | .vmem => 0
  | .smem => 0
  | _ => 0

abbrev bufTy : (tb : Table) → Fin (tcTables nBuf tb) → BufTy
  | .hbm, ⟨0, _⟩ => ⟨S600000x64, .f32⟩
  | .hbm, ⟨1, _⟩ => ⟨S400000x64, .f32⟩
  | .hbm, ⟨2, _⟩ => ⟨S2000000, .i32⟩
  | .hbm, ⟨3, _⟩ => ⟨S2000000, .i32⟩
  | .hbm, ⟨4, _⟩ => ⟨S_, .i32⟩
  | .hbm, ⟨5, _⟩ => ⟨S2000000, .i32⟩
  | .hbm, ⟨6, _⟩ => ⟨S2000000, .i32⟩
  | .hbm, ⟨7, _⟩ => ⟨S4000000, .i32⟩
  | .hbm, ⟨8, _⟩ => ⟨S_, .i32⟩
  | .hbm, ⟨9, _⟩ => ⟨S2000000, .i32⟩
  | .hbm, ⟨10, _⟩ => ⟨S2000000, .i32⟩
  | .hbm, ⟨11, _⟩ => ⟨S4000000, .i32⟩
  | .hbm, ⟨12, _⟩ => ⟨S_, .f32⟩
  | .hbm, ⟨13, _⟩ => ⟨S4000000, .f32⟩
  | .hbm, ⟨14, _⟩ => ⟨S_, .f32⟩
  | .hbm, ⟨15, _⟩ => ⟨S1000000, .f32⟩
  | .hbm, ⟨16, _⟩ => ⟨S4000000x1, .i32⟩
  | .hbm, ⟨17, _⟩ => ⟨S1000000, .f32⟩
  | .hbm, ⟨18, _⟩ => ⟨S_, .f32⟩
  | .hbm, ⟨19, _⟩ => ⟨S1000000, .f32⟩
  | .hbm, ⟨20, _⟩ => ⟨S1000000, .f32⟩
  | .hbm, ⟨21, _⟩ => ⟨S_, .f32⟩
  | .hbm, ⟨22, _⟩ => ⟨S1000000, .f32⟩
  | .hbm, ⟨23, _⟩ => ⟨S1000000, .f32⟩
  | .hbm, ⟨24, _⟩ => ⟨S_, .i32⟩
  | .hbm, ⟨25, _⟩ => ⟨S4000000, .i32⟩
  | .hbm, ⟨26, _⟩ => ⟨S4000000, .i1⟩
  | .hbm, ⟨27, _⟩ => ⟨S_, .i32⟩
  | .hbm, ⟨28, _⟩ => ⟨S4000000, .i32⟩
  | .hbm, ⟨29, _⟩ => ⟨S4000000, .i32⟩
  | .hbm, ⟨30, _⟩ => ⟨S4000000, .i32⟩
  | .hbm, ⟨31, _⟩ => ⟨S4000000x1, .i32⟩
  | .hbm, ⟨32, _⟩ => ⟨S4000000, .f32⟩
  | .hbm, ⟨33, _⟩ => ⟨S_, .i32⟩
  | .hbm, ⟨34, _⟩ => ⟨S4000000, .i32⟩
  | .hbm, ⟨35, _⟩ => ⟨S4000000, .i1⟩
  | .hbm, ⟨36, _⟩ => ⟨S_, .i32⟩
  | .hbm, ⟨37, _⟩ => ⟨S4000000, .i32⟩
  | .hbm, ⟨38, _⟩ => ⟨S4000000, .i32⟩
  | .hbm, ⟨39, _⟩ => ⟨S4000000, .i32⟩
  | .hbm, ⟨40, _⟩ => ⟨S4000000x1, .i32⟩
  | .hbm, ⟨41, _⟩ => ⟨S4000000, .f32⟩
  | .hbm, ⟨42, _⟩ => ⟨S4000000, .f32⟩
  | .hbm, ⟨43, _⟩ => ⟨S1000000x64, .f32⟩
  | .hbm, ⟨44, _⟩ => ⟨S4000000x1, .f32⟩
  | .hbm, ⟨45, _⟩ => ⟨S_, .i32⟩
  | .hbm, ⟨46, _⟩ => ⟨S4000000, .i32⟩
  | .hbm, ⟨47, _⟩ => ⟨S4000000, .i1⟩
  | .hbm, ⟨48, _⟩ => ⟨S_, .i32⟩
  | .hbm, ⟨49, _⟩ => ⟨S4000000, .i32⟩
  | .hbm, ⟨50, _⟩ => ⟨S4000000, .i32⟩
  | .hbm, ⟨51, _⟩ => ⟨S4000000, .i32⟩
  | .hbm, ⟨52, _⟩ => ⟨S4000000x1, .i32⟩
  | .hbm, ⟨53, _⟩ => ⟨S4000000x64, .f32⟩
  | .hbm, ⟨54, _⟩ => ⟨S4000000x64, .f32⟩
  | .hbm, ⟨55, _⟩ => ⟨S4000000x64, .f32⟩
  | .hbm, ⟨56, _⟩ => ⟨S_, .f32⟩
  | .hbm, ⟨57, _⟩ => ⟨S1000000x64, .f32⟩
  | .hbm, ⟨58, _⟩ => ⟨S4000000x1, .i32⟩
  | .hbm, ⟨59, _⟩ => ⟨S1000000x64, .f32⟩
  | .hbm, ⟨60, _⟩ => ⟨S1000000x64, .f32⟩
  | .hbm, ⟨61, _⟩ => ⟨S4000000x1, .f32⟩
  | .hbm, ⟨62, _⟩ => ⟨S_, .i32⟩
  | .hbm, ⟨63, _⟩ => ⟨S4000000, .i32⟩
  | .hbm, ⟨64, _⟩ => ⟨S4000000, .i1⟩
  | .hbm, ⟨65, _⟩ => ⟨S_, .i32⟩
  | .hbm, ⟨66, _⟩ => ⟨S4000000, .i32⟩
  | .hbm, ⟨67, _⟩ => ⟨S4000000, .i32⟩
  | .hbm, ⟨68, _⟩ => ⟨S4000000, .i32⟩
  | .hbm, ⟨69, _⟩ => ⟨S4000000x1, .i32⟩
  | .hbm, ⟨70, _⟩ => ⟨S4000000x64, .f32⟩
  | .hbm, ⟨71, _⟩ => ⟨S4000000x64, .f32⟩
  | .hbm, ⟨72, _⟩ => ⟨S4000000x64, .f32⟩
  | .hbm, ⟨73, _⟩ => ⟨S_, .f32⟩
  | .hbm, ⟨74, _⟩ => ⟨S1000000x64, .f32⟩
  | .hbm, ⟨75, _⟩ => ⟨S4000000x1, .i32⟩
  | .hbm, ⟨76, _⟩ => ⟨S1000000x64, .f32⟩
  | .hbm, ⟨77, _⟩ => ⟨S1000000x64, .f32⟩
  | .hbm, ⟨78, _⟩ => ⟨S4000000x1, .f32⟩
  | .hbm, ⟨79, _⟩ => ⟨S_, .i32⟩
  | .hbm, ⟨80, _⟩ => ⟨S4000000, .i32⟩
  | .hbm, ⟨81, _⟩ => ⟨S4000000, .i1⟩
  | .hbm, ⟨82, _⟩ => ⟨S_, .i32⟩
  | .hbm, ⟨83, _⟩ => ⟨S4000000, .i32⟩
  | .hbm, ⟨84, _⟩ => ⟨S4000000, .i32⟩
  | .hbm, ⟨85, _⟩ => ⟨S4000000, .i32⟩
  | .hbm, ⟨86, _⟩ => ⟨S4000000x1, .i32⟩
  | .hbm, ⟨87, _⟩ => ⟨S4000000x64, .f32⟩
  | .hbm, ⟨88, _⟩ => ⟨S4000000x64, .f32⟩
  | .hbm, ⟨89, _⟩ => ⟨S4000000x64, .f32⟩
  | .hbm, ⟨90, _⟩ => ⟨S_, .f32⟩
  | .hbm, ⟨91, _⟩ => ⟨S1000000x64, .f32⟩
  | .hbm, ⟨92, _⟩ => ⟨S4000000x1, .i32⟩
  | .hbm, ⟨93, _⟩ => ⟨S1000000x64, .f32⟩
  | .hbm, ⟨94, _⟩ => ⟨S1000000x64, .f32⟩
  | .hbm, ⟨95, _⟩ => ⟨S_, .f32⟩
  | .hbm, ⟨96, _⟩ => ⟨S1000000x64, .f32⟩
  | .hbm, ⟨97, _⟩ => ⟨S1000000x64, .f32⟩
  | .hbm, ⟨98, _⟩ => ⟨S600000x64, .f32⟩
  | .hbm, ⟨99, _⟩ => ⟨S400000x64, .f32⟩
  | _, _ => ⟨S600000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_c_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_c_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_8 : Ref sig .tc := ⟨.hbm, 45, rfl⟩
abbrev main_v31 : Ref sig .tc := ⟨.hbm, 46, rfl⟩
abbrev main_v32 : Ref sig .tc := ⟨.hbm, 47, rfl⟩
abbrev main_c_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_11 : Ref sig .tc := ⟨.hbm, 62, rfl⟩
abbrev main_v45 : Ref sig .tc := ⟨.hbm, 63, rfl⟩
abbrev main_v46 : Ref sig .tc := ⟨.hbm, 64, rfl⟩
abbrev main_c_12 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_13 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_14 : Ref sig .tc := ⟨.hbm, 79, rfl⟩
abbrev main_v59 : Ref sig .tc := ⟨.hbm, 80, rfl⟩
abbrev main_v60 : Ref sig .tc := ⟨.hbm, 81, rfl⟩
abbrev main_c_15 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_16 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_17 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  concatenates_S2000000_S2000000_S4000000_d0 : Shape.Concatenates [S2000000, S2000000] S4000000 0
  bcast_S_S4000000 : S_.BroadcastsInDim S4000000 (![] : Fin 0 → Fin S4000000.rank)
  bcast_S_S1000000 : S_.BroadcastsInDim S1000000 (![] : Fin 0 → Fin S1000000.rank)
  bcast_S4000000_S4000000x1_0 : S4000000.BroadcastsInDim S4000000x1 (![0] : Fin 1 → Fin S4000000x1.rank)
  concatenates_S600000x64_S400000x64_S1000000x64_d0 : Shape.Concatenates [S600000x64, S400000x64] S1000000x64 0
  bcast_S4000000x1_S4000000x64_0_1 : S4000000x1.BroadcastsInDim S4000000x64 (![0, 1] : Fin 2 → Fin S4000000x64.rank)
  bcast_S_S1000000x64 : S_.BroadcastsInDim S1000000x64 (![] : Fin 0 → Fin S1000000x64.rank)
  slices_S1000000x64_S600000x64_0_0 : S1000000x64.Slices ![0, 0] S600000x64
  slices_S1000000x64_S400000x64_600000_0 : S1000000x64.Slices ![600000, 0] S400000x64
  scatter_S1000000_S4000000x1_S4000000_n_0_0_1_wf : ScatterDims.WF S1000000 S4000000x1 S4000000 [] [0] [0] 1
  gather_S1000000_S4000000x1_S4000000_n_0_n_n_0_1_1_wf : GatherDims.WF S1000000 S4000000x1 S4000000 [] [0] [] [0] [] 1 ![1]
  gather_S1000000x64_S4000000x1_S4000000x64_1_0_n_n_0_1_164_wf : GatherDims.WF S1000000x64 S4000000x1 S4000000x64 [1] [0] [] [0] [] 1 ![1, 64]
  scatter_S1000000x64_S4000000x1_S4000000x64_1_0_0_1_wf : ScatterDims.WF S1000000x64 S4000000x1 S4000000x64 [1] [0] [0] 1

variable [Facts₀]

def scatter_S1000000_S4000000x1_S4000000_n_0_0_1 : ScatterDims S1000000 S4000000x1 S4000000 where
  updateWindowDims := []
  insertedWindowDims := [0]
  scatterDimsToOperandDims := [0]
  indexVectorDim := 1
  wf := scatter_S1000000_S4000000x1_S4000000_n_0_0_1_wf
def gather_S1000000_S4000000x1_S4000000_n_0_n_n_0_1_1 : GatherDims S1000000 S4000000x1 S4000000 where
  offsetDims := []
  collapsedSliceDims := [0]
  operandBatchingDims := []
  startIndicesBatchingDims := []
  startIndexMap := [0]
  indexVectorDim := 1
  sliceSizes := ![1]
  wf := gather_S1000000_S4000000x1_S4000000_n_0_n_n_0_1_1_wf
def gather_S1000000x64_S4000000x1_S4000000x64_1_0_n_n_0_1_164 : GatherDims S1000000x64 S4000000x1 S4000000x64 where
  offsetDims := [1]
  collapsedSliceDims := [0]
  operandBatchingDims := []
  startIndicesBatchingDims := []
  startIndexMap := [0]
  indexVectorDim := 1
  sliceSizes := ![1, 64]
  wf := gather_S1000000x64_S4000000x1_S4000000x64_1_0_n_n_0_1_164_wf
def scatter_S1000000x64_S4000000x1_S4000000x64_1_0_0_1 : ScatterDims S1000000x64 S4000000x1 S4000000x64 where
  updateWindowDims := [1]
  insertedWindowDims := [0]
  scatterDimsToOperandDims := [0]
  indexVectorDim := 1
  wf := scatter_S1000000x64_S4000000x1_S4000000x64_1_0_0_1_wf

class Facts : Prop extends Facts₀ where

variable [Facts]
-- ==== Proof.HostStretches.lean ====
import proofs.«155642_j85753317032076_1_alg».proof.Proof.Gen.KernelIdeal.Launch
import Idealize.ShloMosaic.Lib.StableHlo.Run

/-! # The host stretches between the launches, one buffer at a time

Between two launches the program runs a short list of host operations: the accumulating scatter that sums the scaled edge
rows into the node rows, or the wrap of the source indices followed by the row gather that reads the node rows back along
the edges. Each lemma here reads ONE buffer after ONE stretch, from ANY contents `W` before it: either as the operation's
function of the buffers it reads, or — for a buffer the stretch does not write — as what was there. -/

set_option maxRecDepth 16384

noncomputable section

namespace Cert.KernelIdeal.Host

open Idealize.ShloMosaic Idealize.ShloMosaic.TcCoe Idealize.SL.Sem Idealize.ShloMosaic.StableHlo Cert.KernelIdeal Cert.KernelIdeal.Gen

variable {F : FTy → Type} [FloatOps F]
variable (W : Valuation τ sig (Elt F))

/-- The zero node rows an accumulating scatter starts from. -/
def zeroRows : FVec F S1000000x64 .f32 :=
  broadcastInDim S1000000x64 ![] bcast_S_S1000000x64 (constant S_ .f32 0x00000000#32)

/-- A list of indices laid out as the column of start indices `[E, 1]`. -/
def asColumn (r : IVec S4005888 32) : IVec S4005888x1 32 :=
  broadcastInDim S4005888x1 ![0] bcast_S4005888_S4005888x1_0 r

/-- The source indices with the negative ones wrapped by the number of nodes, as a column of start indices. -/
def wrappedColumn (cl : IVec S4005888 32) : IVec S4005888x1 32 :=
  broadcastInDim S4005888x1 ![0] bcast_S4005888_S4005888x1_0
    (select (cmpi .slt cl (broadcastInDim S4005888 ![] bcast_S_S4005888 (constantI S_ 32 0#32)))
      (addi cl (broadcastInDim S4005888 ![] bcast_S_S4005888 (constantI S_ 32 1000000#32))) cl)

/-- The node rows summed from the edge rows `u` by the target indices `r`. -/
def scatterRows (r : IVec S4005888 32) (u : FVec F S4005888x64 .f32) : FVec F S1000000x64 .f32 :=
  Host.scatterAdd scatter_S1000000x64_S4005888x1_S4005888x64_1_0_0_1 zeroRows (asColumn r) u

/-- The node rows `x` read along the edges by the source indices `cl`. -/
def gatherRows (x : FVec F S1000000x64 .f32) (cl : IVec S4005888 32) : FVec F S4005888x64 .f32 :=
  Host.gather gather_S1000000x64_S4005888x1_S4005888x64_1_0_n_n_0_1_164 x (wrappedColumn cl)

/-! ## The scatter stretches -/

theorem scatter1 : after hostOps1 W (Proc.devRef .tc main_v46)
    = scatterRows (W (Proc.devRef .tc main_v31)) (W (Proc.devRef .tc main_v43)) := by
  after_results; rfl
theorem scatter3 : after hostOps3 W (Proc.devRef .tc main_v58)
    = scatterRows (W (Proc.devRef .tc main_v31)) (W (Proc.devRef .tc main_v55)) := by
  after_results; rfl
theorem scatter5 : after hostOps5 W (Proc.devRef .tc main_v70)
    = scatterRows (W (Proc.devRef .tc main_v31)) (W (Proc.devRef .tc main_v67)) := by
  after_results; rfl

/-! ## The gather stretches -/

theorem gather2 : after hostOps2 W (Proc.devRef .tc main_v54)
    = gatherRows (W (Proc.devRef .tc main_v46)) (W (Proc.devRef .tc main_v32)) := by
  after_results; rfl
theorem gather4 : after hostOps4 W (Proc.devRef .tc main_v66)
    = gatherRows (W (Proc.devRef .tc main_v58)) (W (Proc.devRef .tc main_v32)) := by
  after_results; rfl

/-! ## The last stretch: the two slices -/

theorem slice_users : after hostOps7 W (Proc.devRef .tc main_v73)
    = extractStridedSlice S600000x64 ![0, 0] (W (Proc.devRef .tc main_v72)) slices_S1000000x64_S600000x64_0_0 := by
  after_results
theorem slice_items : after hostOps7 W (Proc.devRef .tc main_v74)
    = extractStridedSlice S400000x64 ![600000, 0] (W (Proc.devRef .tc main_v72)) slices_S1000000x64_S400000x64_600000_0 := by
  after_results

/-! ## What a stretch leaves alone -/

theorem keep1_v31 : after hostOps1 W (Proc.devRef .tc main_v31) = W (Proc.devRef .tc main_v31) := by after_results
theorem keep1_v32 : after hostOps1 W (Proc.devRef .tc main_v32) = W (Proc.devRef .tc main_v32) := by after_results
theorem keep1_v34 : after hostOps1 W (Proc.devRef .tc main_v34) = W (Proc.devRef .tc main_v34) := by after_results
theorem keep1_v35 : after hostOps1 W (Proc.devRef .tc main_v35) = W (Proc.devRef .tc main_v35) := by after_results
theorem keep2_v31 : after hostOps2 W (Proc.devRef .tc main_v31) = W (Proc.devRef .tc main_v31) := by after_results
theorem keep2_v32 : after hostOps2 W (Proc.devRef .tc main_v32) = W (Proc.devRef .tc main_v32) := by after_results
theorem keep2_v34 : after hostOps2 W (Proc.devRef .tc main_v34) = W (Proc.devRef .tc main_v34) := by after_results
theorem keep2_v47 : after hostOps2 W (Proc.devRef .tc main_v47) = W (Proc.devRef .tc main_v47) := by after_results
theorem keep3_v31 : after hostOps3 W (Proc.devRef .tc main_v31) = W (Proc.devRef .tc main_v31) := by after_results
theorem keep3_v32 : after hostOps3 W (Proc.devRef .tc main_v32) = W (Proc.devRef .tc main_v32) := by after_results
theorem keep3_v34 : after hostOps3 W (Proc.devRef .tc main_v34) = W (Proc.devRef .tc main_v34) := by after_results
theorem keep3_v47 : after hostOps3 W (Proc.devRef .tc main_v47) = W (Proc.devRef .tc main_v47) := by after_results
theorem keep4_v31 : after hostOps4 W (Proc.devRef .tc main_v31) = W (Proc.devRef .tc main_v31) := by after_results
theorem keep4_v34 : after hostOps4 W (Proc.devRef .tc main_v34) = W (Proc.devRef .tc main_v34) := by after_results
theorem keep4_v59 : after hostOps4 W (Proc.devRef .tc main_v59) = W (Proc.devRef .tc main_v59) := by after_results
theorem keep5_v59 : after hostOps5 W (Proc.devRef .tc main_v59) = W (Proc.devRef .tc main_v59) := by after_results

end Cert.KernelIdeal.Host

end
-- ==== Proof.HostInputs.lean ====
import proofs.«155642_j85753317032076_1_alg».proof.Proof.HostStretches

/-! # The stretch before the first launch, one buffer at a time

Before the first launch the program builds, from the two lists of user and item ids, the symmetrized edge lists (targets,
sources) and the edges' weights; pads the three with 5888 trailing entries — index 0, weight 0 — up to 489 tiles of 8192;
joins the two embedding tables into the table of node rows; and gathers the node rows along the padded sources. Each
lemma reads ONE of the buffers the launches and later stretches use, from ANY contents `W` before the stretch. The
unpadded lists and weights stay folded (named by their buffers): nothing here looks inside them. -/

set_option maxRecDepth 16384

noncomputable section

namespace Cert.KernelIdeal.Host

open Idealize.ShloMosaic Idealize.ShloMosaic.TcCoe Idealize.SL.Sem Idealize.ShloMosaic.StableHlo Cert.KernelIdeal Cert.KernelIdeal.Gen

variable {F : FTy → Type} [FloatOps F]
variable (W : Valuation τ sig (Elt F))

/-- The 4000000 target indices of the symmetrized edges, as the stretch leaves them. -/
def targets : IVec S4000000 32 := after hostOps0 W (Proc.devRef .tc main_v2)
/-- The 4000000 source indices of the symmetrized edges, as the stretch leaves them. -/
def sources : IVec S4000000 32 := after hostOps0 W (Proc.devRef .tc main_v5)
/-- The 4000000 edge weights, as the stretch leaves them. -/
def weights : FVec F S4000000 .f32 := after hostOps0 W (Proc.devRef .tc main_v28)

/-- A list of 4000000 indices followed by 5888 zeros. -/
def padIdx (r : IVec S4000000 32) : IVec S4005888 32 :=
  concatenate S4005888 0 [⟨S4000000, r⟩, ⟨S5888, broadcastInDim S5888 ![] bcast_S_S5888 (constantI S_ 32 0#32)⟩]
    concatenates_S4000000_S5888_S4005888_d0

/-- A list of 4000000 weights followed by 5888 zeros, laid out as a column `[4005888, 1]`. -/
def padWeights (w : FVec F S4000000 .f32) : FVec F S4005888x1 .f32 :=
  broadcastInDim S4005888x1 ![0] bcast_S4005888_S4005888x1_0
    (concatenate S4005888 0 [⟨S4000000, w⟩, ⟨S5888, broadcastInDim S5888 ![] bcast_S_S5888 (constant S_ .f32 0x00000000#32)⟩]
      concatenates_S4000000_S5888_S4005888_d0)

/-- The user rows above the item rows: the table of node rows. -/
def table (a0 : FVec F S600000x64 .f32) (a1 : FVec F S400000x64 .f32) : FVec F S1000000x64 .f32 :=
  concatenate S1000000x64 0 [⟨S600000x64, a0⟩, ⟨S400000x64, a1⟩] concatenates_S600000x64_S400000x64_S1000000x64_d0

theorem input_targets : after hostOps0 W (Proc.devRef .tc main_v31) = padIdx (targets W) := by
  unfold targets padIdx; after_results_simp <;> rfl
theorem input_sources : after hostOps0 W (Proc.devRef .tc main_v32) = padIdx (sources W) := by
  unfold sources padIdx; after_results_simp <;> rfl
theorem input_weights : after hostOps0 W (Proc.devRef .tc main_v34) = padWeights (weights W) := by
  unfold weights padWeights; after_results_simp <;> rfl
theorem input_table : after hostOps0 W (Proc.devRef .tc main_v35)
    = table (W (Proc.devRef .tc main_arg0)) (W (Proc.devRef .tc main_arg1)) := by
  unfold table; after_results_simp <;> rfl
theorem input_gathered : after hostOps0 W (Proc.devRef .tc main_v42)
    = gatherRows (after hostOps0 W (Proc.devRef .tc main_v35)) (after hostOps0 W (Proc.devRef .tc main_v32)) := by
  unfold gatherRows wrappedColumn; after_results_simp <;> rfl

end Cert.KernelIdeal.Host

end
-- ==== Proof.Pointwise.lean ====
import proofs.«155642_j85753317032076_1_alg».proof.KernelIdeal

/-! # The three launches' bodies as functions of whole arrays

Each launch of the program applies one pointwise operation tile by tile: the edge rows times their weights, the sum of
two tables of node rows, a table of node rows times one quarter. Stated here on the whole arrays, entry by entry. -/

noncomputable section

namespace Cert.KernelIdeal.Pointwise

open Idealize.ShloMosaic Cert.KernelIdeal

variable {F : FTy → Type} [FloatOps F]

/-- The weight column's entry that scales row `j 0` of a tile of 8192 edge rows. -/
abbrev tileCol (j : S8192x64.Idx) : S8192x1.Idx := fun b => match b with
  | ⟨0, _⟩ => ⟨(j 0).val, (j 0).isLt⟩
  | ⟨1, _⟩ => ⟨0, Nat.one_pos⟩

/-- The weight column's entry that scales row `i 0` of the edge rows. -/
abbrev arrCol (i : S4005888x64.Idx) : S4005888x1.Idx := fun b => match b with
  | ⟨0, _⟩ => ⟨(i 0).val, (i 0).isLt⟩
  | ⟨1, _⟩ => ⟨0, Nat.one_pos⟩

/-- Every edge row times its weight. -/
def scaled (a : S4005888x64.Idx → Elt F .f32) (v : S4005888x1.Idx → Elt F .f32) : S4005888x64.Idx → Elt F .f32 :=
  fun i => FloatOps.mulf (a i) (v (arrCol i))

/-- Two tables of node rows added entry by entry. -/
def added (a b : S1000000x64.Idx → Elt F .f32) : S1000000x64.Idx → Elt F .f32 :=
  fun i => FloatOps.addf (a i) (b i)

/-- A table of node rows times the constant one quarter (the word `0x3E800000`). -/
def quartered (a : S1000000x64.Idx → Elt F .f32) : S1000000x64.Idx → Elt F .f32 :=
  fun i => FloatOps.mulf (a i) (Scalar.ofBits .f32 0x3E800000#32)

end Cert.KernelIdeal.Pointwise

end
-- ==== Proof.Region0.lean ====
import proofs.«155642_j85753317032076_1_alg».proof.Proof.Gen.KernelIdeal.Frame
import proofs.«155642_j85753317032076_1_alg».proof.Proof.Pointwise
import Idealize.ShloMosaic.Lib.Pipeline.Value

/-! # The first edge-scaling launch as one function of its operands

The launch walks the 4005888 edge rows in 489 tiles of 8192 rows. On a tile it loads the tile of gathered source rows
`[8192, 64]` and the tile of the weight column `[8192, 1]`, spreads each weight along its row and multiplies. So every entry
`(e, k)` of the result array is the operand's entry `(e, k)` times the weight `(e, 0)`, and since the tiles tile the array
the whole result array is that function of the two operand arrays as the launch found them. -/

set_option maxRecDepth 16384

noncomputable section

namespace Cert.KernelIdeal.Region0

open Idealize.ShloMosaic Idealize.ShloMosaic.TcCoe Idealize.SL.Sem Cert.KernelIdeal Cert.KernelIdeal.Gen
open Idealize.ShloMosaic.Pipeline (Dat)
open Cert.KernelIdeal.Pointwise

variable {F : FTy → Type} [FloatOps F]
variable (V : (c : Dev nD) → (b : Ref sig .tc) → Buf (Elt F) ((c : Thread nD τ).loc b))

theorem offsets_zero : (![0, 0] : Fin 2 → Nat) = fun _ => 0 := funext fun a => by fin_cases a <;> rfl

/-- The tile's product, entry by entry: the row entry times the row's weight. -/
theorem pay_apply (x0 : Vec F S8192x64 .f32) (x1 : Vec F S8192x1 .f32) (j : S8192x64.Idx) :
    k0_pay1 x0 x1 j = FloatOps.mulf (x0 j) (x1 (tileCol j)) := by
  unfold k0_pay1
  show FloatOps.mulf (shapeCast S8192x64 x0 shapeCasts_S8192x64_S8192x64 j)
    (broadcastTo S8192x64 (shapeCast S8192x1 x1 shapeCasts_S8192x1_S8192x1) broadcasts_S8192x1_S8192x64 j) = _
  rw [shapeCast_self, shapeCast_self,
    broadcastTo_apply x1 broadcasts_S8192x1_S8192x64 j (tileCol j) (fun a => match a with
      | ⟨0, _⟩ => by show (j 0).val = if (8192 : Nat) = 1 then 0 else (j 0).val; rw [if_neg (by decide)]
      | ⟨1, _⟩ => by show 0 = if (1 : Nat) = 1 then 0 else (j 1).val; rw [if_pos rfl])]

/-- The same, as one function of the tile's entry. -/
theorem pay_eq (x0 : Vec F S8192x64 .f32) (x1 : Vec F S8192x1 .f32) :
    k0_pay1 x0 x1 = fun j => FloatOps.mulf (x0 j) (x1 (tileCol j)) := funext (pay_apply x0 x1)

/-- The printed index maps over the grid: tile `t` of each operand is tile `t` of the result, on the only column of tiles. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (0 : Fin 2) ≤ 488
    ∧ win0_2.index t (1 : Fin 2) = 0 :=
  (by decide +kernel : ∀ t : Fin grid0.N, _)

/-- Point `t` of the grid works on tile `t` of the rows. -/
theorem idx_at : ∀ t : Fin cfg0.N, win0_2.index t (0 : Fin 2) = t.val :=
  (by decide +kernel : ∀ t : Fin grid0.N, win0_2.index t (0 : Fin 2) = t.val)

/-- What point `t` writes back is tile `t` of the scaled array. -/
theorem flushed_eq (c : Dev nD) (t : Fin cfg0.N) :
    (dat0 V c).flushed 2 t = ((cfg0.win 2).blk t).view.read (Elt F) (scaled (V c main_v42) (V c main_v34)) := by
  show (cfg0.win 2).cut (grid0.coords t) ((dat0 V c).after 2 t) = _
  rw [after0_2]
  unfold out0_2
  rw [View.canon_unit_zero offsets_zero]
  simp only [View.ld_unit_zero (S := S8192x64) offsets_zero, View.ld_unit_zero (S := S8192x1) offsets_zero]
  rw [pay_eq]
  obtain ⟨e0, e1, e2, e3, e4, e5⟩ := idx_facts t
  funext j
  show FloatOps.mulf (V c main_v42 (((cfg0.win 0).blk t).view.emb j)) (V c main_v34 (((cfg0.win 1).blk t).view.emb (tileCol j)))
    = FloatOps.mulf (V c main_v42 (((cfg0.win 2).blk t).view.emb j)) (V c main_v34 (arrCol (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (tileCol j) = arrCol (((cfg0.win 2).blk t).view.emb j) := by
    funext a; apply Fin.ext
    match a with
    | ⟨0, _⟩ => show win0_1.index t (0 : Fin 2) * 8192 + 1 * (j 0).val = win0_2.index t (0 : Fin 2) * 8192 + 1 * (j 0).val; omega
    | ⟨1, _⟩ => show win0_1.index t (1 : Fin 2) * 1 + 1 * 0 = 0; omega
  rw [h0, h1]

/-- An index of the result array is in point `t`'s tile iff each coordinate is in the tile's range on its axis. -/
theorem mem_blk (t : Fin cfg0.N) (i : S4005888x64.Idx) :
    i ∈ ((cfg0.win 2).blk t).view.set ↔ ∀ a : Fin 2, win0_2.index t a * S8192x64.size a ≤ (i a).val ∧ (i a).val < win0_2.index t a * S8192x64.size a + S8192x64.size a := by
  show i ∈ ((View.whole main_v43).slice (win0_2.rect t)).set ↔ _
  rw [View.set_slice_whole, Rect.mem_set_unit]
  exact Iff.rfl

/-- The tiles cover the result array: row `r` lies in tile `r / 8192`. -/
theorem cover (i : S4005888x64.Idx) :
    ∃ t : Fin cfg0.N, (cfg0.win 2).flush t = true ∧ i ∈ ((cfg0.win 2).blk t).view.set := by
  have hi0 : (i 0).val < 4005888 := (i 0).isLt
  have hi1 : (i 1).val < 64 := (i 1).isLt
  have hN : cfg0.N = 489 := N_0
  have ht : (i 0).val / 8192 < cfg0.N := by rw [hN]; omega
  have q0 : win0_2.index ⟨(i 0).val / 8192, ht⟩ (0 : Fin 2) = (i 0).val / 8192 := idx_at ⟨(i 0).val / 8192, ht⟩
  obtain ⟨-, -, -, -, -, q1⟩ := idx_facts ⟨(i 0).val / 8192, ht⟩
  refine ⟨⟨(i 0).val / 8192, ht⟩, flush0_2 _, ?_⟩
  rw [mem_blk]
  intro a
  match a with
  | ⟨0, _⟩ => show win0_2.index ⟨(i 0).val / 8192, ht⟩ (0 : Fin 2) * 8192 ≤ (i 0).val ∧ (i 0).val < win0_2.index ⟨(i 0).val / 8192, ht⟩ (0 : Fin 2) * 8192 + 8192; omega
  | ⟨1, _⟩ => show win0_2.index ⟨(i 0).val / 8192, ht⟩ (1 : Fin 2) * 64 ≤ (i 1).val ∧ (i 1).val < win0_2.index ⟨(i 0).val / 8192, ht⟩ (1 : Fin 2) * 64 + 64; omega

/-- THE RESULT ARRAY after the launch: every row of the first operand times its weight, both as the launch found them. -/
theorem result_eq (c : Dev nD) : (dat0 V c).arrAt 2 cfg0.N = scaled (V c main_v42) (V c main_v34) :=
  (dat0 V c).arrAt_eq_of_cover 2 _ (fun t _ => flushed_eq V c t) cover

end Cert.KernelIdeal.Region0

end
-- ==== Proof.Region1.lean ====
import proofs.«155642_j85753317032076_1_alg».proof.Proof.Gen.KernelIdeal.Frame
import proofs.«155642_j85753317032076_1_alg».proof.Proof.Pointwise
import Idealize.ShloMosaic.Lib.Pipeline.Value

/-! # The first accumulating launch as one function of its operands

The launch walks the 1000000 node rows in 125 tiles of 8000 rows. On a tile it loads the tile of the running sum and the
tile of the layer's rows and adds them. So every entry of the result array is the sum of the two operands' entries there,
and since the tiles tile the array the whole result array is that function of the two operand arrays as the launch found
them. -/

set_option maxRecDepth 16384

noncomputable section

namespace Cert.KernelIdeal.Region1

open Idealize.ShloMosaic Idealize.ShloMosaic.TcCoe Idealize.SL.Sem Cert.KernelIdeal Cert.KernelIdeal.Gen
open Idealize.ShloMosaic.Pipeline (Dat)
open Cert.KernelIdeal.Pointwise

variable {F : FTy → Type} [FloatOps F]
variable (V : (c : Dev nD) → (b : Ref sig .tc) → Buf (Elt F) ((c : Thread nD τ).loc b))

theorem offsets_zero : (![0, 0] : Fin 2 → Nat) = fun _ => 0 := funext fun a => by fin_cases a <;> rfl

/-- The tile's sum, as one function of the tile's entry. -/
theorem pay_eq (x0 x1 : Vec F S8000x64 .f32) :
    k1_pay1 x0 x1 = fun j => FloatOps.addf (x0 j) (x1 j) := by
  unfold k1_pay1
  show addf (shapeCast S8000x64 x0 shapeCasts_S8000x64_S8000x64) (shapeCast S8000x64 x1 shapeCasts_S8000x64_S8000x64) = _
  rw [shapeCast_self, shapeCast_self]
  rfl

/-- The printed index maps over the grid: tile `t` of each operand is tile `t` of the result, on the only column of tiles. -/
theorem idx_facts : ∀ t : Fin cfg1.N, win1_0.index t (0 : Fin 2) = win1_2.index t (0 : Fin 2)
    ∧ win1_0.index t (1 : Fin 2) = 0
    ∧ win1_1.index t (0 : Fin 2) = win1_2.index t (0 : Fin 2)
    ∧ win1_1.index t (1 : Fin 2) = 0
    ∧ win1_2.index t (0 : Fin 2) ≤ 124
    ∧ win1_2.index t (1 : Fin 2) = 0 :=
  (by decide +kernel : ∀ t : Fin grid1.N, _)

/-- Point `t` of the grid works on tile `t` of the rows. -/
theorem idx_at : ∀ t : Fin cfg1.N, win1_2.index t (0 : Fin 2) = t.val :=
  (by decide +kernel : ∀ t : Fin grid1.N, win1_2.index t (0 : Fin 2) = t.val)

/-- What point `t` writes back is tile `t` of the summed array. -/
theorem flushed_eq (c : Dev nD) (t : Fin cfg1.N) :
    (dat1 V c).flushed 2 t = ((cfg1.win 2).blk t).view.read (Elt F) (added (V c main_v35) (V c main_v46)) := by
  show (cfg1.win 2).cut (grid1.coords t) ((dat1 V c).after 2 t) = _
  rw [after1_2]
  unfold out1_2
  rw [View.canon_unit_zero offsets_zero]
  simp only [View.ld_unit_zero (S := S8000x64) offsets_zero]
  rw [pay_eq]
  obtain ⟨e0, e1, e2, e3, e4, e5⟩ := idx_facts t
  funext j
  show FloatOps.addf (V c main_v35 (((cfg1.win 0).blk t).view.emb j)) (V c main_v46 (((cfg1.win 1).blk t).view.emb j))
    = FloatOps.addf (V c main_v35 (((cfg1.win 2).blk t).view.emb j)) (V c main_v46 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 8000 + 1 * (j 0).val = win1_2.index t (0 : Fin 2) * 8000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 8000 + 1 * (j 0).val = win1_2.index t (0 : Fin 2) * 8000 + 1 * (j 0).val; omega
    | ⟨1, _⟩ => show win1_1.index t (1 : Fin 2) * 64 + 1 * (j 1).val = win1_2.index t (1 : Fin 2) * 64 + 1 * (j 1).val; omega
  rw [h0, h1]

/-- An index of the result array is in point `t`'s tile iff each coordinate is in the tile's range on its axis. -/
theorem mem_blk (t : Fin cfg1.N) (i : S1000000x64.Idx) :
    i ∈ ((cfg1.win 2).blk t).view.set ↔ ∀ a : Fin 2, win1_2.index t a * S8000x64.size a ≤ (i a).val ∧ (i a).val < win1_2.index t a * S8000x64.size a + S8000x64.size a := by
  show i ∈ ((View.whole main_v47).slice (win1_2.rect t)).set ↔ _
  rw [View.set_slice_whole, Rect.mem_set_unit]
  exact Iff.rfl

/-- The tiles cover the result array: row `r` lies in tile `r / 8000`. -/
theorem cover (i : S1000000x64.Idx) :
    ∃ t : Fin cfg1.N, (cfg1.win 2).flush t = true ∧ i ∈ ((cfg1.win 2).blk t).view.set := by
  have hi0 : (i 0).val < 1000000 := (i 0).isLt
  have hi1 : (i 1).val < 64 := (i 1).isLt
  have hN : cfg1.N = 125 := N_1
  have ht : (i 0).val / 8000 < cfg1.N := by rw [hN]; omega
  have q0 : win1_2.index ⟨(i 0).val / 8000, ht⟩ (0 : Fin 2) = (i 0).val / 8000 := idx_at ⟨(i 0).val / 8000, ht⟩
  obtain ⟨-, -, -, -, -, q1⟩ := idx_facts ⟨(i 0).val / 8000, ht⟩
  refine ⟨⟨(i 0).val / 8000, ht⟩, flush1_2 _, ?_⟩
  rw [mem_blk]
  intro a
  match a with
  | ⟨0, _⟩ => show win1_2.index ⟨(i 0).val / 8000, ht⟩ (0 : Fin 2) * 8000 ≤ (i 0).val ∧ (i 0).val < win1_2.index ⟨(i 0).val / 8000, ht⟩ (0 : Fin 2) * 8000 + 8000; omega
  | ⟨1, _⟩ => show win1_2.index ⟨(i 0).val / 8000, ht⟩ (1 : Fin 2) * 64 ≤ (i 1).val ∧ (i 1).val < win1_2.index ⟨(i 0).val / 8000, ht⟩ (1 : Fin 2) * 64 + 64; omega

/-- THE RESULT ARRAY after the launch: the two operands added, both as the launch found them. -/
theorem result_eq (c : Dev nD) : (dat1 V c).arrAt 2 cfg1.N = added (V c main_v35) (V c main_v46) :=
  (dat1 V c).arrAt_eq_of_cover 2 _ (fun t _ => flushed_eq V c t) cover

end Cert.KernelIdeal.Region1

end
-- ==== Proof.Region2.lean ====
import proofs.«155642_j85753317032076_1_alg».proof.Proof.Gen.KernelIdeal.Frame
import proofs.«155642_j85753317032076_1_alg».proof.Proof.Pointwise
import Idealize.ShloMosaic.Lib.Pipeline.Value

/-! # The second edge-scaling launch as one function of its operands

The launch walks the 4005888 edge rows in 489 tiles of 8192 rows. On a tile it loads the tile of gathered source rows
`[8192, 64]` and the tile of the weight column `[8192, 1]`, spreads each weight along its row and multiplies. So every entry
`(e, k)` of the result array is the operand's entry `(e, k)` times the weight `(e, 0)`, and since the tiles tile the array
the whole result array is that function of the two operand arrays as the launch found them. -/

set_option maxRecDepth 16384

noncomputable section

namespace Cert.KernelIdeal.Region2

open Idealize.ShloMosaic Idealize.ShloMosaic.TcCoe Idealize.SL.Sem Cert.KernelIdeal Cert.KernelIdeal.Gen
open Idealize.ShloMosaic.Pipeline (Dat)
open Cert.KernelIdeal.Pointwise

variable {F : FTy → Type} [FloatOps F]
variable (V : (c : Dev nD) → (b : Ref sig .tc) → Buf (Elt F) ((c : Thread nD τ).loc b))

theorem offsets_zero : (![0, 0] : Fin 2 → Nat) = fun _ => 0 := funext fun a => by fin_cases a <;> rfl

/-- The tile's product, entry by entry: the row entry times the row's weight. -/
theorem pay_apply (x0 : Vec F S8192x64 .f32) (x1 : Vec F S8192x1 .f32) (j : S8192x64.Idx) :
    k2_pay1 x0 x1 j = FloatOps.mulf (x0 j) (x1 (tileCol j)) := by
  unfold k2_pay1
  show FloatOps.mulf (shapeCast S8192x64 x0 shapeCasts_S8192x64_S8192x64 j)
    (broadcastTo S8192x64 (shapeCast S8192x1 x1 shapeCasts_S8192x1_S8192x1) broadcasts_S8192x1_S8192x64 j) = _
  rw [shapeCast_self, shapeCast_self,
    broadcastTo_apply x1 broadcasts_S8192x1_S8192x64 j (tileCol j) (fun a => match a with
      | ⟨0, _⟩ => by show (j 0).val = if (8192 : Nat) = 1 then 0 else (j 0).val; rw [if_neg (by decide)]
      | ⟨1, _⟩ => by show 0 = if (1 : Nat) = 1 then 0 else (j 1).val; rw [if_pos rfl])]

/-- The same, as one function of the tile's entry. -/
theorem pay_eq (x0 : Vec F S8192x64 .f32) (x1 : Vec F S8192x1 .f32) :
    k2_pay1 x0 x1 = fun j => FloatOps.mulf (x0 j) (x1 (tileCol j)) := funext (pay_apply x0 x1)

/-- The printed index maps over the grid: tile `t` of each operand is tile `t` of the result, on the only column of tiles. -/
theorem idx_facts : ∀ t : Fin cfg2.N, win2_0.index t (0 : Fin 2) = win2_2.index t (0 : Fin 2)
    ∧ win2_0.index t (1 : Fin 2) = 0
    ∧ win2_1.index t (0 : Fin 2) = win2_2.index t (0 : Fin 2)
    ∧ win2_1.index t (1 : Fin 2) = 0
    ∧ win2_2.index t (0 : Fin 2) ≤ 488
    ∧ win2_2.index t (1 : Fin 2) = 0 :=
  (by decide +kernel : ∀ t : Fin grid2.N, _)

/-- Point `t` of the grid works on tile `t` of the rows. -/
theorem idx_at : ∀ t : Fin cfg2.N, win2_2.index t (0 : Fin 2) = t.val :=
  (by decide +kernel : ∀ t : Fin grid2.N, win2_2.index t (0 : Fin 2) = t.val)

/-- What point `t` writes back is tile `t` of the scaled array. -/
theorem flushed_eq (c : Dev nD) (t : Fin cfg2.N) :
    (dat2 V c).flushed 2 t = ((cfg2.win 2).blk t).view.read (Elt F) (scaled (V c main_v54) (V c main_v34)) := by
  show (cfg2.win 2).cut (grid2.coords t) ((dat2 V c).after 2 t) = _
  rw [after2_2]
  unfold out2_2
  rw [View.canon_unit_zero offsets_zero]
  simp only [View.ld_unit_zero (S := S8192x64) offsets_zero, View.ld_unit_zero (S := S8192x1) offsets_zero]
  rw [pay_eq]
  obtain ⟨e0, e1, e2, e3, e4, e5⟩ := idx_facts t
  funext j
  show FloatOps.mulf (V c main_v54 (((cfg2.win 0).blk t).view.emb j)) (V c main_v34 (((cfg2.win 1).blk t).view.emb (tileCol j)))
    = FloatOps.mulf (V c main_v54 (((cfg2.win 2).blk t).view.emb j)) (V c main_v34 (arrCol (((cfg2.win 2).blk t).view.emb j)))
  have h0 : ((cfg2.win 0).blk t).view.emb j = ((cfg2.win 2).blk t).view.emb j := by
    funext a; apply Fin.ext
    match a with
    | ⟨0, _⟩ => show win2_0.index t (0 : Fin 2) * 8192 + 1 * (j 0).val = win2_2.index t (0 : Fin 2) * 8192 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (tileCol j) = arrCol (((cfg2.win 2).blk t).view.emb j) := by
    funext a; apply Fin.ext
    match a with
    | ⟨0, _⟩ => show win2_1.index t (0 : Fin 2) * 8192 + 1 * (j 0).val = win2_2.index t (0 : Fin 2) * 8192 + 1 * (j 0).val; omega
    | ⟨1, _⟩ => show win2_1.index t (1 : Fin 2) * 1 + 1 * 0 = 0; omega
  rw [h0, h1]

/-- An index of the result array is in point `t`'s tile iff each coordinate is in the tile's range on its axis. -/
theorem mem_blk (t : Fin cfg2.N) (i : S4005888x64.Idx) :
    i ∈ ((cfg2.win 2).blk t).view.set ↔ ∀ a : Fin 2, win2_2.index t a * S8192x64.size a ≤ (i a).val ∧ (i a).val < win2_2.index t a * S8192x64.size a + S8192x64.size a := by
  show i ∈ ((View.whole main_v55).slice (win2_2.rect t)).set ↔ _
  rw [View.set_slice_whole, Rect.mem_set_unit]
  exact Iff.rfl

/-- The tiles cover the result array: row `r` lies in tile `r / 8192`. -/
theorem cover (i : S4005888x64.Idx) :
    ∃ t : Fin cfg2.N, (cfg2.win 2).flush t = true ∧ i ∈ ((cfg2.win 2).blk t).view.set := by
  have hi0 : (i 0).val < 4005888 := (i 0).isLt
  have hi1 : (i 1).val < 64 := (i 1).isLt
  have hN : cfg2.N = 489 := N_2
  have ht : (i 0).val / 8192 < cfg2.N := by rw [hN]; omega
  have q0 : win2_2.index ⟨(i 0).val / 8192, ht⟩ (0 : Fin 2) = (i 0).val / 8192 := idx_at ⟨(i 0).val / 8192, ht⟩
  obtain ⟨-, -, -, -, -, q1⟩ := idx_facts ⟨(i 0).val / 8192, ht⟩
  refine ⟨⟨(i 0).val / 8192, ht⟩, flush2_2 _, ?_⟩
  rw [mem_blk]
  intro a
  match a with
  | ⟨0, _⟩ => show win2_2.index ⟨(i 0).val / 8192, ht⟩ (0 : Fin 2) * 8192 ≤ (i 0).val ∧ (i 0).val < win2_2.index ⟨(i 0).val / 8192, ht⟩ (0 : Fin 2) * 8192 + 8192; omega
  | ⟨1, _⟩ => show win2_2.index ⟨(i 0).val / 8192, ht⟩ (1 : Fin 2) * 64 ≤ (i 1).val ∧ (i 1).val < win2_2.index ⟨(i 0).val / 8192, ht⟩ (1 : Fin 2) * 64 + 64; omega

/-- THE RESULT ARRAY after the launch: every row of the first operand times its weight, both as the launch found them. -/
theorem result_eq (c : Dev nD) : (dat2 V c).arrAt 2 cfg2.N = scaled (V c main_v54) (V c main_v34) :=
  (dat2 V c).arrAt_eq_of_cover 2 _ (fun t _ => flushed_eq V c t) cover

end Cert.KernelIdeal.Region2

end
-- ==== Proof.Region3.lean ====
import proofs.«155642_j85753317032076_1_alg».proof.Proof.Gen.KernelIdeal.Frame
import proofs.«155642_j85753317032076_1_alg».proof.Proof.Pointwise
import Idealize.ShloMosaic.Lib.Pipeline.Value

/-! # The second accumulating launch as one function of its operands

The launch walks the 1000000 node rows in 125 tiles of 8000 rows. On a tile it loads the tile of the running sum and the
tile of the layer's rows and adds them. So every entry of the result array is the sum of the two operands' entries there,
and since the tiles tile the array the whole result array is that function of the two operand arrays as the launch found
them. -/

set_option maxRecDepth 16384

noncomputable section

namespace Cert.KernelIdeal.Region3

open Idealize.ShloMosaic Idealize.ShloMosaic.TcCoe Idealize.SL.Sem Cert.KernelIdeal Cert.KernelIdeal.Gen
open Idealize.ShloMosaic.Pipeline (Dat)
open Cert.KernelIdeal.Pointwise

variable {F : FTy → Type} [FloatOps F]
variable (V : (c : Dev nD) → (b : Ref sig .tc) → Buf (Elt F) ((c : Thread nD τ).loc b))

theorem offsets_zero : (![0, 0] : Fin 2 → Nat) = fun _ => 0 := funext fun a => by fin_cases a <;> rfl

/-- The tile's sum, as one function of the tile's entry. -/
theorem pay_eq (x0 x1 : Vec F S8000x64 .f32) :
    k3_pay1 x0 x1 = fun j => FloatOps.addf (x0 j) (x1 j) := by
  unfold k3_pay1
  show addf (shapeCast S8000x64 x0 shapeCasts_S8000x64_S8000x64) (shapeCast S8000x64 x1 shapeCasts_S8000x64_S8000x64) = _
  rw [shapeCast_self, shapeCast_self]
  rfl

/-- The printed index maps over the grid: tile `t` of each operand is tile `t` of the result, on the only column of tiles. -/
theorem idx_facts : ∀ t : Fin cfg3.N, win3_0.index t (0 : Fin 2) = win3_2.index t (0 : Fin 2)
    ∧ win3_0.index t (1 : Fin 2) = 0
    ∧ win3_1.index t (0 : Fin 2) = win3_2.index t (0 : Fin 2)
    ∧ win3_1.index t (1 : Fin 2) = 0
    ∧ win3_2.index t (0 : Fin 2) ≤ 124
    ∧ win3_2.index t (1 : Fin 2) = 0 :=
  (by decide +kernel : ∀ t : Fin grid3.N, _)

/-- Point `t` of the grid works on tile `t` of the rows. -/
theorem idx_at : ∀ t : Fin cfg3.N, win3_2.index t (0 : Fin 2) = t.val :=
  (by decide +kernel : ∀ t : Fin grid3.N, win3_2.index t (0 : Fin 2) = t.val)

/-- What point `t` writes back is tile `t` of the summed array. -/
theorem flushed_eq (c : Dev nD) (t : Fin cfg3.N) :
    (dat3 V c).flushed 2 t = ((cfg3.win 2).blk t).view.read (Elt F) (added (V c main_v47) (V c main_v58)) := by
  show (cfg3.win 2).cut (grid3.coords t) ((dat3 V c).after 2 t) = _
  rw [after3_2]
  unfold out3_2
  rw [View.canon_unit_zero offsets_zero]
  simp only [View.ld_unit_zero (S := S8000x64) offsets_zero]
  rw [pay_eq]
  obtain ⟨e0, e1, e2, e3, e4, e5⟩ := idx_facts t
  funext j
  show FloatOps.addf (V c main_v47 (((cfg3.win 0).blk t).view.emb j)) (V c main_v58 (((cfg3.win 1).blk t).view.emb j))
    = FloatOps.addf (V c main_v47 (((cfg3.win 2).blk t).view.emb j)) (V c main_v58 (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 8000 + 1 * (j 0).val = win3_2.index t (0 : Fin 2) * 8000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb j = ((cfg3.win 2).blk t).view.emb j := by
    funext a; apply Fin.ext
    match a with
    | ⟨0, _⟩ => show win3_1.index t (0 : Fin 2) * 8000 + 1 * (j 0).val = win3_2.index t (0 : Fin 2) * 8000 + 1 * (j 0).val; omega
    | ⟨1, _⟩ => show win3_1.index t (1 : Fin 2) * 64 + 1 * (j 1).val = win3_2.index t (1 : Fin 2) * 64 + 1 * (j 1).val; omega
  rw [h0, h1]

/-- An index of the result array is in point `t`'s tile iff each coordinate is in the tile's range on its axis. -/
theorem mem_blk (t : Fin cfg3.N) (i : S1000000x64.Idx) :
    i ∈ ((cfg3.win 2).blk t).view.set ↔ ∀ a : Fin 2, win3_2.index t a * S8000x64.size a ≤ (i a).val ∧ (i a).val < win3_2.index t a * S8000x64.size a + S8000x64.size a := by
  show i ∈ ((View.whole main_v59).slice (win3_2.rect t)).set ↔ _
  rw [View.set_slice_whole, Rect.mem_set_unit]
  exact Iff.rfl

/-- The tiles cover the result array: row `r` lies in tile `r / 8000`. -/
theorem cover (i : S1000000x64.Idx) :
    ∃ t : Fin cfg3.N, (cfg3.win 2).flush t = true ∧ i ∈ ((cfg3.win 2).blk t).view.set := by
  have hi0 : (i 0).val < 1000000 := (i 0).isLt
  have hi1 : (i 1).val < 64 := (i 1).isLt
  have hN : cfg3.N = 125 := N_3
  have ht : (i 0).val / 8000 < cfg3.N := by rw [hN]; omega
  have q0 : win3_2.index ⟨(i 0).val / 8000, ht⟩ (0 : Fin 2) = (i 0).val / 8000 := idx_at ⟨(i 0).val / 8000, ht⟩
  obtain ⟨-, -, -, -, -, q1⟩ := idx_facts ⟨(i 0).val / 8000, ht⟩
  refine ⟨⟨(i 0).val / 8000, ht⟩, flush3_2 _, ?_⟩
  rw [mem_blk]
  intro a
  match a with
  | ⟨0, _⟩ => show win3_2.index ⟨(i 0).val / 8000, ht⟩ (0 : Fin 2) * 8000 ≤ (i 0).val ∧ (i 0).val < win3_2.index ⟨(i 0).val / 8000, ht⟩ (0 : Fin 2) * 8000 + 8000; omega
  | ⟨1, _⟩ => show win3_2.index ⟨(i 0).val / 8000, ht⟩ (1 : Fin 2) * 64 ≤ (i 1).val ∧ (i 1).val < win3_2.index ⟨(i 0).val / 8000, ht⟩ (1 : Fin 2) * 64 + 64; omega

/-- THE RESULT ARRAY after the launch: the two operands added, both as the launch found them. -/
theorem result_eq (c : Dev nD) : (dat3 V c).arrAt 2 cfg3.N = added (V c main_v47) (V c main_v58) :=
  (dat3 V c).arrAt_eq_of_cover 2 _ (fun t _ => flushed_eq V c t) cover

end Cert.KernelIdeal.Region3

end
-- ==== Proof.Region4.lean ====
import proofs.«155642_j85753317032076_1_alg».proof.Proof.Gen.KernelIdeal.Frame
import proofs.«155642_j85753317032076_1_alg».proof.Proof.Pointwise
import Idealize.ShloMosaic.Lib.Pipeline.Value

/-! # The third edge-scaling launch as one function of its operands

The launch walks the 4005888 edge rows in 489 tiles of 8192 rows. On a tile it loads the tile of gathered source rows
`[8192, 64]` and the tile of the weight column `[8192, 1]`, spreads each weight along its row and multiplies. So every entry
`(e, k)` of the result array is the operand's entry `(e, k)` times the weight `(e, 0)`, and since the tiles tile the array
the whole result array is that function of the two operand arrays as the launch found them. -/

set_option maxRecDepth 16384

noncomputable section

namespace Cert.KernelIdeal.Region4

open Idealize.ShloMosaic Idealize.ShloMosaic.TcCoe Idealize.SL.Sem Cert.KernelIdeal Cert.KernelIdeal.Gen
open Idealize.ShloMosaic.Pipeline (Dat)
open Cert.KernelIdeal.Pointwise

variable {F : FTy → Type} [FloatOps F]
variable (V : (c : Dev nD) → (b : Ref sig .tc) → Buf (Elt F) ((c : Thread nD τ).loc b))

theorem offsets_zero : (![0, 0] : Fin 2 → Nat) = fun _ => 0 := funext fun a => by fin_cases a <;> rfl

/-- The tile's product, entry by entry: the row entry times the row's weight. -/
theorem pay_apply (x0 : Vec F S8192x64 .f32) (x1 : Vec F S8192x1 .f32) (j : S8192x64.Idx) :
    k4_pay1 x0 x1 j = FloatOps.mulf (x0 j) (x1 (tileCol j)) := by
  unfold k4_pay1
  show FloatOps.mulf (shapeCast S8192x64 x0 shapeCasts_S8192x64_S8192x64 j)
    (broadcastTo S8192x64 (shapeCast S8192x1 x1 shapeCasts_S8192x1_S8192x1) broadcasts_S8192x1_S8192x64 j) = _
  rw [shapeCast_self, shapeCast_self,
    broadcastTo_apply x1 broadcasts_S8192x1_S8192x64 j (tileCol j) (fun a => match a with
      | ⟨0, _⟩ => by show (j 0).val = if (8192 : Nat) = 1 then 0 else (j 0).val; rw [if_neg (by decide)]
      | ⟨1, _⟩ => by show 0 = if (1 : Nat) = 1 then 0 else (j 1).val; rw [if_pos rfl])]

/-- The same, as one function of the tile's entry. -/
theorem pay_eq (x0 : Vec F S8192x64 .f32) (x1 : Vec F S8192x1 .f32) :
    k4_pay1 x0 x1 = fun j => FloatOps.mulf (x0 j) (x1 (tileCol j)) := funext (pay_apply x0 x1)

/-- The printed index maps over the grid: tile `t` of each operand is tile `t` of the result, on the only column of tiles. -/
theorem idx_facts : ∀ t : Fin cfg4.N, win4_0.index t (0 : Fin 2) = win4_2.index t (0 : Fin 2)
    ∧ win4_0.index t (1 : Fin 2) = 0
    ∧ win4_1.index t (0 : Fin 2) = win4_2.index t (0 : Fin 2)
    ∧ win4_1.index t (1 : Fin 2) = 0
    ∧ win4_2.index t (0 : Fin 2) ≤ 488
    ∧ win4_2.index t (1 : Fin 2) = 0 :=
  (by decide +kernel : ∀ t : Fin grid4.N, _)

/-- Point `t` of the grid works on tile `t` of the rows. -/
theorem idx_at : ∀ t : Fin cfg4.N, win4_2.index t (0 : Fin 2) = t.val :=
  (by decide +kernel : ∀ t : Fin grid4.N, win4_2.index t (0 : Fin 2) = t.val)

/-- What point `t` writes back is tile `t` of the scaled array. -/
theorem flushed_eq (c : Dev nD) (t : Fin cfg4.N) :
    (dat4 V c).flushed 2 t = ((cfg4.win 2).blk t).view.read (Elt F) (scaled (V c main_v66) (V c main_v34)) := by
  show (cfg4.win 2).cut (grid4.coords t) ((dat4 V c).after 2 t) = _
  rw [after4_2]
  unfold out4_2
  rw [View.canon_unit_zero offsets_zero]
  simp only [View.ld_unit_zero (S := S8192x64) offsets_zero, View.ld_unit_zero (S := S8192x1) offsets_zero]
  rw [pay_eq]
  obtain ⟨e0, e1, e2, e3, e4, e5⟩ := idx_facts t
  funext j
  show FloatOps.mulf (V c main_v66 (((cfg4.win 0).blk t).view.emb j)) (V c main_v34 (((cfg4.win 1).blk t).view.emb (tileCol j)))
    = FloatOps.mulf (V c main_v66 (((cfg4.win 2).blk t).view.emb j)) (V c main_v34 (arrCol (((cfg4.win 2).blk t).view.emb j)))
  have h0 : ((cfg4.win 0).blk t).view.emb j = ((cfg4.win 2).blk t).view.emb j := by
    funext a; apply Fin.ext
    match a with
    | ⟨0, _⟩ => show win4_0.index t (0 : Fin 2) * 8192 + 1 * (j 0).val = win4_2.index t (0 : Fin 2) * 8192 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb (tileCol j) = arrCol (((cfg4.win 2).blk t).view.emb j) := by
    funext a; apply Fin.ext
    match a with
    | ⟨0, _⟩ => show win4_1.index t (0 : Fin 2) * 8192 + 1 * (j 0).val = win4_2.index t (0 : Fin 2) * 8192 + 1 * (j 0).val; omega
    | ⟨1, _⟩ => show win4_1.index t (1 : Fin 2) * 1 + 1 * 0 = 0; omega
  rw [h0, h1]

/-- An index of the result array is in point `t`'s tile iff each coordinate is in the tile's range on its axis. -/
theorem mem_blk (t : Fin cfg4.N) (i : S4005888x64.Idx) :
    i ∈ ((cfg4.win 2).blk t).view.set ↔ ∀ a : Fin 2, win4_2.index t a * S8192x64.size a ≤ (i a).val ∧ (i a).val < win4_2.index t a * S8192x64.size a + S8192x64.size a := by
  show i ∈ ((View.whole main_v67).slice (win4_2.rect t)).set ↔ _
  rw [View.set_slice_whole, Rect.mem_set_unit]
  exact Iff.rfl

/-- The tiles cover the result array: row `r` lies in tile `r / 8192`. -/
theorem cover (i : S4005888x64.Idx) :
    ∃ t : Fin cfg4.N, (cfg4.win 2).flush t = true ∧ i ∈ ((cfg4.win 2).blk t).view.set := by
  have hi0 : (i 0).val < 4005888 := (i 0).isLt
  have hi1 : (i 1).val < 64 := (i 1).isLt
  have hN : cfg4.N = 489 := N_4
  have ht : (i 0).val / 8192 < cfg4.N := by rw [hN]; omega
  have q0 : win4_2.index ⟨(i 0).val / 8192, ht⟩ (0 : Fin 2) = (i 0).val / 8192 := idx_at ⟨(i 0).val / 8192, ht⟩
  obtain ⟨-, -, -, -, -, q1⟩ := idx_facts ⟨(i 0).val / 8192, ht⟩
  refine ⟨⟨(i 0).val / 8192, ht⟩, flush4_2 _, ?_⟩
  rw [mem_blk]
  intro a
  match a with
  | ⟨0, _⟩ => show win4_2.index ⟨(i 0).val / 8192, ht⟩ (0 : Fin 2) * 8192 ≤ (i 0).val ∧ (i 0).val < win4_2.index ⟨(i 0).val / 8192, ht⟩ (0 : Fin 2) * 8192 + 8192; omega
  | ⟨1, _⟩ => show win4_2.index ⟨(i 0).val / 8192, ht⟩ (1 : Fin 2) * 64 ≤ (i 1).val ∧ (i 1).val < win4_2.index ⟨(i 0).val / 8192, ht⟩ (1 : Fin 2) * 64 + 64; omega

/-- THE RESULT ARRAY after the launch: every row of the first operand times its weight, both as the launch found them. -/
theorem result_eq (c : Dev nD) : (dat4 V c).arrAt 2 cfg4.N = scaled (V c main_v66) (V c main_v34) :=
  (dat4 V c).arrAt_eq_of_cover 2 _ (fun t _ => flushed_eq V c t) cover

end Cert.KernelIdeal.Region4

end
-- ==== Proof.Region5.lean ====
import proofs.«155642_j85753317032076_1_alg».proof.Proof.Gen.KernelIdeal.Frame
import proofs.«155642_j85753317032076_1_alg».proof.Proof.Pointwise
import Idealize.ShloMosaic.Lib.Pipeline.Value

/-! # The third accumulating launch as one function of its operands

The launch walks the 1000000 node rows in 125 tiles of 8000 rows. On a tile it loads the tile of the running sum and the
tile of the layer's rows and adds them. So every entry of the result array is the sum of the two operands' entries there,
and since the tiles tile the array the whole result array is that function of the two operand arrays as the launch found
them. -/

set_option maxRecDepth 16384

noncomputable section

namespace Cert.KernelIdeal.Region5

open Idealize.ShloMosaic Idealize.ShloMosaic.TcCoe Idealize.SL.Sem Cert.KernelIdeal Cert.KernelIdeal.Gen
open Idealize.ShloMosaic.Pipeline (Dat)
open Cert.KernelIdeal.Pointwise

variable {F : FTy → Type} [FloatOps F]
variable (V : (c : Dev nD) → (b : Ref sig .tc) → Buf (Elt F) ((c : Thread nD τ).loc b))

theorem offsets_zero : (![0, 0] : Fin 2 → Nat) = fun _ => 0 := funext fun a => by fin_cases a <;> rfl

/-- The tile's sum, as one function of the tile's entry. -/
theorem pay_eq (x0 x1 : Vec F S8000x64 .f32) :
    k5_pay1 x0 x1 = fun j => FloatOps.addf (x0 j) (x1 j) := by
  unfold k5_pay1
  show addf (shapeCast S8000x64 x0 shapeCasts_S8000x64_S8000x64) (shapeCast S8000x64 x1 shapeCasts_S8000x64_S8000x64) = _
  rw [shapeCast_self, shapeCast_self]
  rfl

/-- The printed index maps over the grid: tile `t` of each operand is tile `t` of the result, on the only column of tiles. -/
theorem idx_facts : ∀ t : Fin cfg5.N, win5_0.index t (0 : Fin 2) = win5_2.index t (0 : Fin 2)
    ∧ win5_0.index t (1 : Fin 2) = 0
    ∧ win5_1.index t (0 : Fin 2) = win5_2.index t (0 : Fin 2)
    ∧ win5_1.index t (1 : Fin 2) = 0
    ∧ win5_2.index t (0 : Fin 2) ≤ 124
    ∧ win5_2.index t (1 : Fin 2) = 0 :=
  (by decide +kernel : ∀ t : Fin grid5.N, _)

/-- Point `t` of the grid works on tile `t` of the rows. -/
theorem idx_at : ∀ t : Fin cfg5.N, win5_2.index t (0 : Fin 2) = t.val :=
  (by decide +kernel : ∀ t : Fin grid5.N, win5_2.index t (0 : Fin 2) = t.val)

/-- What point `t` writes back is tile `t` of the summed array. -/
theorem flushed_eq (c : Dev nD) (t : Fin cfg5.N) :
    (dat5 V c).flushed 2 t = ((cfg5.win 2).blk t).view.read (Elt F) (added (V c main_v59) (V c main_v70)) := by
  show (cfg5.win 2).cut (grid5.coords t) ((dat5 V c).after 2 t) = _
  rw [after5_2]
  unfold out5_2
  rw [View.canon_unit_zero offsets_zero]
  simp only [View.ld_unit_zero (S := S8000x64) offsets_zero]
  rw [pay_eq]
  obtain ⟨e0, e1, e2, e3, e4, e5⟩ := idx_facts t
  funext j
  show FloatOps.addf (V c main_v59 (((cfg5.win 0).blk t).view.emb j)) (V c main_v70 (((cfg5.win 1).blk t).view.emb j))
    = FloatOps.addf (V c main_v59 (((cfg5.win 2).blk t).view.emb j)) (V c main_v70 (((cfg5.win 2).blk t).view.emb j))
  have h0 : ((cfg5.win 0).blk t).view.emb j = ((cfg5.win 2).blk t).view.emb j := by
    funext a; apply Fin.ext
    match a with
    | ⟨0, _⟩ => show win5_0.index t (0 : Fin 2) * 8000 + 1 * (j 0).val = win5_2.index t (0 : Fin 2) * 8000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb j = ((cfg5.win 2).blk t).view.emb j := by
    funext a; apply Fin.ext
    match a with
    | ⟨0, _⟩ => show win5_1.index t (0 : Fin 2) * 8000 + 1 * (j 0).val = win5_2.index t (0 : Fin 2) * 8000 + 1 * (j 0).val; omega
    | ⟨1, _⟩ => show win5_1.index t (1 : Fin 2) * 64 + 1 * (j 1).val = win5_2.index t (1 : Fin 2) * 64 + 1 * (j 1).val; omega
  rw [h0, h1]

/-- An index of the result array is in point `t`'s tile iff each coordinate is in the tile's range on its axis. -/
theorem mem_blk (t : Fin cfg5.N) (i : S1000000x64.Idx) :
    i ∈ ((cfg5.win 2).blk t).view.set ↔ ∀ a : Fin 2, win5_2.index t a * S8000x64.size a ≤ (i a).val ∧ (i a).val < win5_2.index t a * S8000x64.size a + S8000x64.size a := by
  show i ∈ ((View.whole main_v71).slice (win5_2.rect t)).set ↔ _
  rw [View.set_slice_whole, Rect.mem_set_unit]
  exact Iff.rfl

/-- The tiles cover the result array: row `r` lies in tile `r / 8000`. -/
theorem cover (i : S1000000x64.Idx) :
    ∃ t : Fin cfg5.N, (cfg5.win 2).flush t = true ∧ i ∈ ((cfg5.win 2).blk t).view.set := by
  have hi0 : (i 0).val < 1000000 := (i 0).isLt
  have hi1 : (i 1).val < 64 := (i 1).isLt
  have hN : cfg5.N = 125 := N_5
  have ht : (i 0).val / 8000 < cfg5.N := by rw [hN]; omega
  have q0 : win5_2.index ⟨(i 0).val / 8000, ht⟩ (0 : Fin 2) = (i 0).val / 8000 := idx_at ⟨(i 0).val / 8000, ht⟩
  obtain ⟨-, -, -, -, -, q1⟩ := idx_facts ⟨(i 0).val / 8000, ht⟩
  refine ⟨⟨(i 0).val / 8000, ht⟩, flush5_2 _, ?_⟩
  rw [mem_blk]
  intro a
  match a with
  | ⟨0, _⟩ => show win5_2.index ⟨(i 0).val / 8000, ht⟩ (0 : Fin 2) * 8000 ≤ (i 0).val ∧ (i 0).val < win5_2.index ⟨(i 0).val / 8000, ht⟩ (0 : Fin 2) * 8000 + 8000; omega
  | ⟨1, _⟩ => show win5_2.index ⟨(i 0).val / 8000, ht⟩ (1 : Fin 2) * 64 ≤ (i 1).val ∧ (i 1).val < win5_2.index ⟨(i 0).val / 8000, ht⟩ (1 : Fin 2) * 64 + 64; omega

/-- THE RESULT ARRAY after the launch: the two operands added, both as the launch found them. -/
theorem result_eq (c : Dev nD) : (dat5 V c).arrAt 2 cfg5.N = added (V c main_v59) (V c main_v70) :=
  (dat5 V c).arrAt_eq_of_cover 2 _ (fun t _ => flushed_eq V c t) cover

end Cert.KernelIdeal.Region5

end
-- ==== Proof.Region6.lean ====
import proofs.«155642_j85753317032076_1_alg».proof.Proof.Gen.KernelIdeal.Frame
import proofs.«155642_j85753317032076_1_alg».proof.Proof.Pointwise
import Idealize.ShloMosaic.Lib.Pipeline.Value

/-! # The closing launch as one function of its operand

The launch walks the 1000000 node rows in 125 tiles of 8000 rows. On a tile it loads the tile of the summed layers and
multiplies every entry by the constant one quarter. So every entry of the result array is the operand's entry there times
one quarter, and since the tiles tile the array the whole result array is that function of the operand array as the launch
found it. -/

set_option maxRecDepth 16384

noncomputable section

namespace Cert.KernelIdeal.Region6

open Idealize.ShloMosaic Idealize.ShloMosaic.TcCoe Idealize.SL.Sem Cert.KernelIdeal Cert.KernelIdeal.Gen
open Idealize.ShloMosaic.Pipeline (Dat)
open Cert.KernelIdeal.Pointwise

variable {F : FTy → Type} [FloatOps F]
variable (V : (c : Dev nD) → (b : Ref sig .tc) → Buf (Elt F) ((c : Thread nD τ).loc b))

theorem offsets_zero : (![0, 0] : Fin 2 → Nat) = fun _ => 0 := funext fun a => by fin_cases a <;> rfl

/-- The tile's product, as one function of the tile's entry. -/
theorem pay_eq (x0 : Vec F S8000x64 .f32) :
    k6_pay1 x0 = fun j => FloatOps.mulf (x0 j) (Scalar.ofBits .f32 0x3E800000#32) := by
  unfold k6_pay1
  show mulf (shapeCast S8000x64 x0 shapeCasts_S8000x64_S8000x64) (broadcast S8000x64 (Scalar.ofBits .f32 0x3E800000#32)) = _
  rw [shapeCast_self]
  rfl

/-- The printed index maps over the grid: tile `t` of the operand is tile `t` of the result, on the only column of tiles. -/
theorem idx_facts : ∀ t : Fin cfg6.N, win6_0.index t (0 : Fin 2) = win6_1.index t (0 : Fin 2)
    ∧ win6_0.index t (1 : Fin 2) = 0
    ∧ win6_1.index t (0 : Fin 2) ≤ 124
    ∧ win6_1.index t (1 : Fin 2) = 0 :=
  (by decide +kernel : ∀ t : Fin grid6.N, _)

/-- Point `t` of the grid works on tile `t` of the rows. -/
theorem idx_at : ∀ t : Fin cfg6.N, win6_1.index t (0 : Fin 2) = t.val :=
  (by decide +kernel : ∀ t : Fin grid6.N, win6_1.index t (0 : Fin 2) = t.val)

/-- What point `t` writes back is tile `t` of the quartered array. -/
theorem flushed_eq (c : Dev nD) (t : Fin cfg6.N) :
    (dat6 V c).flushed 1 t = ((cfg6.win 1).blk t).view.read (Elt F) (quartered (V c main_v71)) := by
  show (cfg6.win 1).cut (grid6.coords t) ((dat6 V c).after 1 t) = _
  rw [after6_1]
  unfold out6_1
  rw [View.canon_unit_zero offsets_zero]
  simp only [View.ld_unit_zero (S := S8000x64) offsets_zero]
  rw [pay_eq]
  obtain ⟨e0, e1, e2, e3⟩ := idx_facts t
  funext j
  show FloatOps.mulf (V c main_v71 (((cfg6.win 0).blk t).view.emb j)) (Scalar.ofBits .f32 0x3E800000#32)
    = FloatOps.mulf (V c main_v71 (((cfg6.win 1).blk t).view.emb j)) (Scalar.ofBits .f32 0x3E800000#32)
  have h0 : ((cfg6.win 0).blk t).view.emb j = ((cfg6.win 1).blk t).view.emb j := by
    funext a; apply Fin.ext
    match a with
    | ⟨0, _⟩ => show win6_0.index t (0 : Fin 2) * 8000 + 1 * (j 0).val = win6_1.index t (0 : Fin 2) * 8000 + 1 * (j 0).val; omega
    | ⟨1, _⟩ => show win6_0.index t (1 : Fin 2) * 64 + 1 * (j 1).val = win6_1.index t (1 : Fin 2) * 64 + 1 * (j 1).val; omega
  rw [h0]

/-- An index of the result array is in point `t`'s tile iff each coordinate is in the tile's range on its axis. -/
theorem mem_blk (t : Fin cfg6.N) (i : S1000000x64.Idx) :
    i ∈ ((cfg6.win 1).blk t).view.set ↔ ∀ a : Fin 2, win6_1.index t a * S8000x64.size a ≤ (i a).val ∧ (i a).val < win6_1.index t a * S8000x64.size a + S8000x64.size a := by
  show i ∈ ((View.whole main_v72).slice (win6_1.rect t)).set ↔ _
  rw [View.set_slice_whole, Rect.mem_set_unit]
  exact Iff.rfl

/-- The tiles cover the result array: row `r` lies in tile `r / 8000`. -/
theorem cover (i : S1000000x64.Idx) :
    ∃ t : Fin cfg6.N, (cfg6.win 1).flush t = true ∧ i ∈ ((cfg6.win 1).blk t).view.set := by
  have hi0 : (i 0).val < 1000000 := (i 0).isLt
  have hi1 : (i 1).val < 64 := (i 1).isLt
  have hN : cfg6.N = 125 := N_6
  have ht : (i 0).val / 8000 < cfg6.N := by rw [hN]; omega
  have q0 : win6_1.index ⟨(i 0).val / 8000, ht⟩ (0 : Fin 2) = (i 0).val / 8000 := idx_at ⟨(i 0).val / 8000, ht⟩
  obtain ⟨-, -, -, q1⟩ := idx_facts ⟨(i 0).val / 8000, ht⟩
  refine ⟨⟨(i 0).val / 8000, ht⟩, flush6_1 _, ?_⟩
  rw [mem_blk]
  intro a
  match a with
  | ⟨0, _⟩ => show win6_1.index ⟨(i 0).val / 8000, ht⟩ (0 : Fin 2) * 8000 ≤ (i 0).val ∧ (i 0).val < win6_1.index ⟨(i 0).val / 8000, ht⟩ (0 : Fin 2) * 8000 + 8000; omega
  | ⟨1, _⟩ => show win6_1.index ⟨(i 0).val / 8000, ht⟩ (1 : Fin 2) * 64 ≤ (i 1).val ∧ (i 1).val < win6_1.index ⟨(i 0).val / 8000, ht⟩ (1 : Fin 2) * 64 + 64; omega

/-- THE RESULT ARRAY after the launch: the operand, as the launch found it, times one quarter. -/
theorem result_eq (c : Dev nD) : (dat6 V c).arrAt 1 cfg6.N = quartered (V c main_v71) :=
  (dat6 V c).arrAt_eq_of_cover 1 _ (fun t _ => flushed_eq V c t) cover

end Cert.KernelIdeal.Region6

end
-- ==== Proof.KernelValue.lean ====
import proofs.«155642_j85753317032076_1_alg».proof.Proof.Gen.KernelIdeal.Frame
import proofs.«155642_j85753317032076_1_alg».proof.Proof.HostInputs
import proofs.«155642_j85753317032076_1_alg».proof.Proof.Region0
import proofs.«155642_j85753317032076_1_alg».proof.Proof.Region1
import proofs.«155642_j85753317032076_1_alg».proof.Proof.Region2
import proofs.«155642_j85753317032076_1_alg».proof.Proof.Region3
import proofs.«155642_j85753317032076_1_alg».proof.Proof.Region4
import proofs.«155642_j85753317032076_1_alg».proof.Proof.Region5
import proofs.«155642_j85753317032076_1_alg».proof.Proof.Region6

/-! # The two result arrays as one function of the padded edge lists and the table of node rows

One propagation layer sends the table of node rows `x` to `scatterRows r (scaled (gatherRows x cl) wv)`: the rows read along
the padded sources `cl`, each times its weight `wv`, summed by the padded targets `r`. The program runs three layers, each
on the previous layer's result, adds the three results to the table it started from, and multiplies by one quarter; the two
result arrays are the user rows and the item rows of that. This file walks the buffer contents from segment boundary to
segment boundary — a launch's result by its whole-array function, a host stretch's by its operation, every other buffer
as it was — and composes them. -/

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Host Cert.KernelIdeal.Pointwise

variable {F : FTy → Type} [FloatOps F]

/-- One propagation layer on the padded edge lists. -/
def layer (r cl : IVec S4005888 32) (wv : FVec F S4005888x1 .f32) (x : FVec F S1000000x64 .f32) : FVec F S1000000x64 .f32 :=
  scatterRows r (scaled (gatherRows x cl) wv)

/-- The mean of the table and its three propagated layers. -/
def propagated (r cl : IVec S4005888 32) (wv : FVec F S4005888x1 .f32) (e0 : FVec F S1000000x64 .f32) : FVec F S1000000x64 .f32 :=
  quartered (added (added (added e0 (layer r cl wv e0)) (layer r cl wv (layer r cl wv e0)))
    (layer r cl wv (layer r cl wv (layer r cl wv e0))))

variable (m : (ℓ : Loc nD τ sig) → Buf (Elt F) ℓ) (ρ : Dev nD → PrngReg) (c : Dev nD)

/-! ## Boundary by boundary -/

-- the first layer
theorem b1_gathered : W1 m ρ c (Proc.devRef .tc main_v42)
    = gatherRows (W1 m ρ c (Proc.devRef .tc main_v35)) (W1 m ρ c (Proc.devRef .tc main_v32)) := input_gathered (W0 m ρ c)
theorem b2_scaled : W2 m ρ c (Proc.devRef .tc main_v43)
    = scaled (W1 m ρ c (Proc.devRef .tc main_v42)) (W1 m ρ c (Proc.devRef .tc main_v34)) :=
  (W2_arr m ρ c 2).trans (Region0.result_eq (V1 m ρ) c)
theorem b2_v31 : W2 m ρ c (Proc.devRef .tc main_v31) = W1 m ρ c (Proc.devRef .tc main_v31) := W2_of_ne m ρ c main_v31 (by decide)
theorem b2_v32 : W2 m ρ c (Proc.devRef .tc main_v32) = W1 m ρ c (Proc.devRef .tc main_v32) := W2_of_ne m ρ c main_v32 (by decide)
theorem b2_v34 : W2 m ρ c (Proc.devRef .tc main_v34) = W1 m ρ c (Proc.devRef .tc main_v34) :=
  (W2_arr m ρ c 1).trans (((dat0 (V1 m ρ) c).arrAt_in 1 rfl _).trans (A_eq0 (V1 m ρ) c 1))
theorem b2_v35 : W2 m ρ c (Proc.devRef .tc main_v35) = W1 m ρ c (Proc.devRef .tc main_v35) := W2_of_ne m ρ c main_v35 (by decide)
theorem b3_summed : W3 m ρ c (Proc.devRef .tc main_v46)
    = scatterRows (W2 m ρ c (Proc.devRef .tc main_v31)) (W2 m ρ c (Proc.devRef .tc main_v43)) := scatter1 (W2 m ρ c)
theorem b4_acc : W4 m ρ c (Proc.devRef .tc main_v47)
    = added (W3 m ρ c (Proc.devRef .tc main_v35)) (W3 m ρ c (Proc.devRef .tc main_v46)) :=
  (W4_arr m ρ c 2).trans (Region1.result_eq (V3 m ρ) c)
theorem b4_v31 : W4 m ρ c (Proc.devRef .tc main_v31) = W3 m ρ c (Proc.devRef .tc main_v31) := W4_of_ne m ρ c main_v31 (by decide)
theorem b4_v32 : W4 m ρ c (Proc.devRef .tc main_v32) = W3 m ρ c (Proc.devRef .tc main_v32) := W4_of_ne m ρ c main_v32 (by decide)
theorem b4_v34 : W4 m ρ c (Proc.devRef .tc main_v34) = W3 m ρ c (Proc.devRef .tc main_v34) := W4_of_ne m ρ c main_v34 (by decide)
theorem b4_v46 : W4 m ρ c (Proc.devRef .tc main_v46) = W3 m ρ c (Proc.devRef .tc main_v46) :=
  (W4_arr m ρ c 1).trans (((dat1 (V3 m ρ) c).arrAt_in 1 rfl _).trans (A_eq1 (V3 m ρ) c 1))
-- the second layer
theorem b5_gathered : W5 m ρ c (Proc.devRef .tc main_v54)
    = gatherRows (W4 m ρ c (Proc.devRef .tc main_v46)) (W4 m ρ c (Proc.devRef .tc main_v32)) := gather2 (W4 m ρ c)
theorem b6_scaled : W6 m ρ c (Proc.devRef .tc main_v55)
    = scaled (W5 m ρ c (Proc.devRef .tc main_v54)) (W5 m ρ c (Proc.devRef .tc main_v34)) :=
  (W6_arr m ρ c 2).trans (Region2.result_eq (V5 m ρ) c)
theorem b6_v31 : W6 m ρ c (Proc.devRef .tc main_v31) = W5 m ρ c (Proc.devRef .tc main_v31) := W6_of_ne m ρ c main_v31 (by decide)
theorem b6_v32 : W6 m ρ c (Proc.devRef .tc main_v32) = W5 m ρ c (Proc.devRef .tc main_v32) := W6_of_ne m ρ c main_v32 (by decide)
theorem b6_v34 : W6 m ρ c (Proc.devRef .tc main_v34) = W5 m ρ c (Proc.devRef .tc main_v34) :=
  (W6_arr m ρ c 1).trans (((dat2 (V5 m ρ) c).arrAt_in 1 rfl _).trans (A_eq2 (V5 m ρ) c 1))
theorem b6_v47 : W6 m ρ c (Proc.devRef .tc main_v47) = W5 m ρ c (Proc.devRef .tc main_v47) := W6_of_ne m ρ c main_v47 (by decide)
theorem b7_summed : W7 m ρ c (Proc.devRef .tc main_v58)
    = scatterRows (W6 m ρ c (Proc.devRef .tc main_v31)) (W6 m ρ c (Proc.devRef .tc main_v55)) := scatter3 (W6 m ρ c)
theorem b8_acc : W8 m ρ c (Proc.devRef .tc main_v59)
    = added (W7 m ρ c (Proc.devRef .tc main_v47)) (W7 m ρ c (Proc.devRef .tc main_v58)) :=
  (W8_arr m ρ c 2).trans (Region3.result_eq (V7 m ρ) c)
theorem b8_v31 : W8 m ρ c (Proc.devRef .tc main_v31) = W7 m ρ c (Proc.devRef .tc main_v31) := W8_of_ne m ρ c main_v31 (by decide)
theorem b8_v32 : W8 m ρ c (Proc.devRef .tc main_v32) = W7 m ρ c (Proc.devRef .tc main_v32) := W8_of_ne m ρ c main_v32 (by decide)
theorem b8_v34 : W8 m ρ c (Proc.devRef .tc main_v34) = W7 m ρ c (Proc.devRef .tc main_v34) := W8_of_ne m ρ c main_v34 (by decide)
theorem b8_v58 : W8 m ρ c (Proc.devRef .tc main_v58) = W7 m ρ c (Proc.devRef .tc main_v58) :=
  (W8_arr m ρ c 1).trans (((dat3 (V7 m ρ) c).arrAt_in 1 rfl _).trans (A_eq3 (V7 m ρ) c 1))
-- the third layer
theorem b9_gathered : W9 m ρ c (Proc.devRef .tc main_v66)
    = gatherRows (W8 m ρ c (Proc.devRef .tc main_v58)) (W8 m ρ c (Proc.devRef .tc main_v32)) := gather4 (W8 m ρ c)
theorem b10_scaled : W10 m ρ c (Proc.devRef .tc main_v67)
    = scaled (W9 m ρ c (Proc.devRef .tc main_v66)) (W9 m ρ c (Proc.devRef .tc main_v34)) :=
  (W10_arr m ρ c 2).trans (Region4.result_eq (V9 m ρ) c)
theorem b10_v31 : W10 m ρ c (Proc.devRef .tc main_v31) = W9 m ρ c (Proc.devRef .tc main_v31) := W10_of_ne m ρ c main_v31 (by decide)
theorem b10_v59 : W10 m ρ c (Proc.devRef .tc main_v59) = W9 m ρ c (Proc.devRef .tc main_v59) := W10_of_ne m ρ c main_v59 (by decide)
theorem b11_summed : W11 m ρ c (Proc.devRef .tc main_v70)
    = scatterRows (W10 m ρ c (Proc.devRef .tc main_v31)) (W10 m ρ c (Proc.devRef .tc main_v67)) := scatter5 (W10 m ρ c)
theorem b12_acc : W12 m ρ c (Proc.devRef .tc main_v71)
    = added (W11 m ρ c (Proc.devRef .tc main_v59)) (W11 m ρ c (Proc.devRef .tc main_v70)) :=
  (W12_arr m ρ c 2).trans (Region5.result_eq (V11 m ρ) c)
-- the mean and the two slices
theorem b13_mean : W13 m ρ c (Proc.devRef .tc main_v72) = quartered (W12 m ρ c (Proc.devRef .tc main_v71)) :=
  (W13_arr m ρ c 1).trans (Region6.result_eq (V12 m ρ) c)

/-! ## The edge lists, the weights and the table reach every layer unchanged -/

theorem targets_at3 : W3 m ρ c (Proc.devRef .tc main_v31) = W1 m ρ c (Proc.devRef .tc main_v31) :=
  (keep1_v31 (W2 m ρ c)).trans (b2_v31 m ρ c)
theorem sources_at3 : W3 m ρ c (Proc.devRef .tc main_v32) = W1 m ρ c (Proc.devRef .tc main_v32) :=
  (keep1_v32 (W2 m ρ c)).trans (b2_v32 m ρ c)
theorem weights_at3 : W3 m ρ c (Proc.devRef .tc main_v34) = W1 m ρ c (Proc.devRef .tc main_v34) :=
  (keep1_v34 (W2 m ρ c)).trans (b2_v34 m ρ c)
theorem table_at3 : W3 m ρ c (Proc.devRef .tc main_v35) = W1 m ρ c (Proc.devRef .tc main_v35) :=
  (keep1_v35 (W2 m ρ c)).trans (b2_v35 m ρ c)
theorem targets_at5 : W5 m ρ c (Proc.devRef .tc main_v31) = W1 m ρ c (Proc.devRef .tc main_v31) :=
  (keep2_v31 (W4 m ρ c)).trans ((b4_v31 m ρ c).trans (targets_at3 m ρ c))
theorem sources_at5 : W5 m ρ c (Proc.devRef .tc main_v32) = W1 m ρ c (Proc.devRef .tc main_v32) :=
  (keep2_v32 (W4 m ρ c)).trans ((b4_v32 m ρ c).trans (sources_at3 m ρ c))
theorem weights_at5 : W5 m ρ c (Proc.devRef .tc main_v34) = W1 m ρ c (Proc.devRef .tc main_v34) :=
  (keep2_v34 (W4 m ρ c)).trans ((b4_v34 m ρ c).trans (weights_at3 m ρ c))
theorem targets_at7 : W7 m ρ c (Proc.devRef .tc main_v31) = W1 m ρ c (Proc.devRef .tc main_v31) :=
  (keep3_v31 (W6 m ρ c)).trans ((b6_v31 m ρ c).trans (targets_at5 m ρ c))
theorem sources_at7 : W7 m ρ c (Proc.devRef .tc main_v32) = W1 m ρ c (Proc.devRef .tc main_v32) :=
  (keep3_v32 (W6 m ρ c)).trans ((b6_v32 m ρ c).trans (sources_at5 m ρ c))
theorem weights_at7 : W7 m ρ c (Proc.devRef .tc main_v34) = W1 m ρ c (Proc.devRef .tc main_v34) :=
  (keep3_v34 (W6 m ρ c)).trans ((b6_v34 m ρ c).trans (weights_at5 m ρ c))
theorem targets_at9 : W9 m ρ c (Proc.devRef .tc main_v31) = W1 m ρ c (Proc.devRef .tc main_v31) :=
  (keep4_v31 (W8 m ρ c)).trans ((b8_v31 m ρ c).trans (targets_at7 m ρ c))
theorem weights_at9 : W9 m ρ c (Proc.devRef .tc main_v34) = W1 m ρ c (Proc.devRef .tc main_v34) :=
  (keep4_v34 (W8 m ρ c)).trans ((b8_v34 m ρ c).trans (weights_at7 m ρ c))

/-- The running sum after one layer reaches the second accumulating launch unchanged. -/
theorem sum_at7 : W7 m ρ c (Proc.devRef .tc main_v47) = W4 m ρ c (Proc.devRef .tc main_v47) :=
  (keep3_v47 (W6 m ρ c)).trans ((b6_v47 m ρ c).trans (keep2_v47 (W4 m ρ c)))
/-- The running sum after two layers reaches the third accumulating launch unchanged. -/
theorem sum_at11 : W11 m ρ c (Proc.devRef .tc main_v59) = W8 m ρ c (Proc.devRef .tc main_v59) :=
  (keep5_v59 (W10 m ρ c)).trans ((b10_v59 m ρ c).trans (keep4_v59 (W8 m ρ c)))

/-! ## The three layers and the running sum -/

/-- The first layer's rows. -/
theorem layer1 : W3 m ρ c (Proc.devRef .tc main_v46)
    = layer (W1 m ρ c (Proc.devRef .tc main_v31)) (W1 m ρ c (Proc.devRef .tc main_v32)) (W1 m ρ c (Proc.devRef .tc main_v34))
        (W1 m ρ c (Proc.devRef .tc main_v35)) := by
  rw [b3_summed, b2_v31, b2_scaled, b1_gathered]; rfl

/-- The table plus the first layer. -/
theorem sum1 : W4 m ρ c (Proc.devRef .tc main_v47)
    = added (W1 m ρ c (Proc.devRef .tc main_v35)) (W3 m ρ c (Proc.devRef .tc main_v46)) := by
  rw [b4_acc, table_at3]

/-- The second layer's rows: the layer of the first layer's. -/
theorem layer2 : W7 m ρ c (Proc.devRef .tc main_v58)
    = layer (W1 m ρ c (Proc.devRef .tc main_v31)) (W1 m ρ c (Proc.devRef .tc main_v32)) (W1 m ρ c (Proc.devRef .tc main_v34))
        (W3 m ρ c (Proc.devRef .tc main_v46)) := by
  rw [b7_summed, b6_v31, targets_at5, b6_scaled, weights_at5, b5_gathered, b4_v46, b4_v32, sources_at3]; rfl

/-- The running sum after two layers. -/
theorem sum2 : W8 m ρ c (Proc.devRef .tc main_v59)
    = added (W4 m ρ c (Proc.devRef .tc main_v47)) (W7 m ρ c (Proc.devRef .tc main_v58)) := by
  rw [b8_acc, sum_at7]

/-- The third layer's rows: the layer of the second layer's. -/
theorem layer3 : W11 m ρ c (Proc.devRef .tc main_v70)
    = layer (W1 m ρ c (Proc.devRef .tc main_v31)) (W1 m ρ c (Proc.devRef .tc main_v32)) (W1 m ρ c (Proc.devRef .tc main_v34))
        (W7 m ρ c (Proc.devRef .tc main_v58)) := by
  rw [b11_summed, b10_v31, targets_at9, b10_scaled, weights_at9, b9_gathered, b8_v58, b8_v32, sources_at7]; rfl

/-- The running sum after three layers. -/
theorem sum3 : W12 m ρ c (Proc.devRef .tc main_v71)
    = added (W8 m ρ c (Proc.devRef .tc main_v59)) (W11 m ρ c (Proc.devRef .tc main_v70)) := by
  rw [b12_acc, sum_at11]

/-- The mean of the table and its three layers, from the padded edge lists, the padded weights and the table as the
    first launch finds them. -/
theorem mean_eq : W13 m ρ c (Proc.devRef .tc main_v72)
    = propagated (W1 m ρ c (Proc.devRef .tc main_v31)) (W1 m ρ c (Proc.devRef .tc main_v32)) (W1 m ρ c (Proc.devRef .tc main_v34))
        (W1 m ρ c (Proc.devRef .tc main_v35)) := by
  rw [b13_mean, sum3, layer3, sum2, layer2, sum1, layer1]; rfl

/-- The user rows of the mean. -/
theorem users_eq : W14 m ρ c (Proc.devRef .tc main_v73)
    = extractStridedSlice S600000x64 ![0, 0] (propagated (W1 m ρ c (Proc.devRef .tc main_v31)) (W1 m ρ c (Proc.devRef .tc main_v32))
        (W1 m ρ c (Proc.devRef .tc main_v34)) (W1 m ρ c (Proc.devRef .tc main_v35))) slices_S1000000x64_S600000x64_0_0 := by
  rw [← mean_eq]; exact slice_users (W13 m ρ c)

/-- The item rows of the mean. -/
theorem items_eq : W14 m ρ c (Proc.devRef .tc main_v74)
    = extractStridedSlice S400000x64 ![600000, 0] (propagated (W1 m ρ c (Proc.devRef .tc main_v31)) (W1 m ρ c (Proc.devRef .tc main_v32))
        (W1 m ρ c (Proc.devRef .tc main_v34)) (W1 m ρ c (Proc.devRef .tc main_v35))) slices_S1000000x64_S400000x64_600000_0 := by
  rw [← mean_eq]; exact slice_items (W13 m ρ c)

end Cert.KernelIdeal.Chain

end
-- ==== Proof.WrapIndex.lean ====
import Idealize.ShloMosaic.PureOps

/-! # Wrapping a signed index

A negative row index counts from the end of the table: the program adds the number of rows to it and leaves the
others alone, word by word. -/

noncomputable section

namespace Cert.WrapIndex

open Idealize.ShloMosaic

/-- The index word `b` with the table's 1000000 rows added when it is negative as a signed word. -/
def wrapped (b : BitVec 32) : BitVec 32 :=
  Scalar.select (IntOp.cmpi .slt b 0#32) (IntOp.addi b 1000000#32) b

end Cert.WrapIndex

end
-- ==== Proof.ReferenceLayers.lean ====
import proofs.«155642_j85753317032076_1_alg».proof.Proof.Gen.ReferenceIdeal.Read
import proofs.«155642_j85753317032076_1_alg».proof.Proof.WrapIndex
import Idealize.ShloMosaic.Lib.ValueIdx
import Idealize.ShloMosaic.PureOps.Ideal.Laws

/-! # The reference's three propagation layers, entry by entry

Each layer of the reference scatters, by the column of target indices, the product of the spread edge weights and the
rows gathered by the column of wrapped source indices, into a table of zeros. This file reads the four inputs of each of
the three scatters at an entry — the target column, the wrapped source column, the spread weights, the zero table — from
the edge lists `val_main_v2` (targets), `val_main_v5` (sources) and the weights `val_main_v28`, and reads the closing
division by four as a product with one quarter. -/

noncomputable section

namespace Cert.ReferenceIdeal.Layers

open Idealize.ShloMosaic Idealize.ShloMosaic.ValueIdx Cert.ReferenceIdeal Cert.ReferenceIdeal.Read Cert.WrapIndex

variable {F : FTy → Type} [FloatOps F]
variable (x0 : (⟨S600000x64, .f32⟩ : BufTy).Contents (Elt Ideal)) (x1 : (⟨S400000x64, .f32⟩ : BufTy).Contents (Elt Ideal))
variable (x2 x3 : (⟨S2000000, .i32⟩ : BufTy).Contents (Elt Ideal))

/-! ## Indices of a column and of a spread column -/

/-- A rank-1 index is determined by its one coordinate. -/
theorem idx1_eq (e : Fin 4000000) (j : S4000000.Idx) (h : (j 0).val = e.val) : j = ix1 e :=
  funext fun a => Fin.ext (by match a with | ⟨0, _⟩ => exact h)

/-- An index of a one-column table is determined by its row. -/
theorem idx2_eq (e : Fin 4000000) (j : S4000000x1.Idx) (h : (j 0).val = e.val) : j = ix2 e 0 :=
  funext fun a => Fin.ext (by
    match a with
    | ⟨0, _⟩ => exact h
    | ⟨1, _⟩ => exact Nat.lt_one_iff.mp (j 1).isLt)

/-! ## The two float words of the closing division -/

/-- The word `0x40800000` (sign 0, exponent 129, significand 0) denotes `2 ^ 2 = 4`. -/
theorem ofBits_four : Ideal.ofBits .f32 0x40800000#32 = ((4 : ℝ) : EReal) := by
  simp [Ideal.ofBits, Ideal.ieee, -EReal.coe_mul]; norm_num

/-- The word `0x3E800000` (sign 0, exponent 125, significand 0) denotes `2 ^ (-2) = 1 / 4`. -/
theorem ofBits_quarter : Ideal.ofBits .f32 0x3E800000#32 = ((1 / 4 : ℝ) : EReal) := by
  simp [Ideal.ofBits, Ideal.ieee, -EReal.coe_mul]; norm_num

/-! ## The target columns -/
theorem targets1 (e : Fin 4000000) : val_main_v41 (F := Ideal) x2 x3 (ix2 e 0) = val_main_v2 (F := Ideal) x2 x3 (ix1 e) := by
  rw [val_main_v41_apply]
  exact congrArg _ (idx1_eq e _ rfl)
theorem targets2 (e : Fin 4000000) : val_main_v55 (F := Ideal) x2 x3 (ix2 e 0) = val_main_v2 (F := Ideal) x2 x3 (ix1 e) := by
  rw [val_main_v55_apply]
  exact congrArg _ (idx1_eq e _ rfl)
theorem targets3 (e : Fin 4000000) : val_main_v69 (F := Ideal) x2 x3 (ix2 e 0) = val_main_v2 (F := Ideal) x2 x3 (ix1 e) := by
  rw [val_main_v69_apply]
  exact congrArg _ (idx1_eq e _ rfl)

/-! ## The wrapped source columns -/
theorem sources1 (e : Fin 4000000) : val_main_v36 (F := Ideal) x2 x3 (ix2 e 0) = wrapped (val_main_v5 (F := Ideal) x2 x3 (ix1 e)) := by
  rw [val_main_v36_apply, idx1_eq e (idx_main_v36 (ix2 e 0)) rfl, val_main_v35_apply, val_main_v32_apply,
    val_main_v34_apply, val_main_v31_apply, val_main_v33_apply, val_main_c_8_apply, val_main_c_9_apply]
  rfl
theorem sources2 (e : Fin 4000000) : val_main_v50 (F := Ideal) x2 x3 (ix2 e 0) = wrapped (val_main_v5 (F := Ideal) x2 x3 (ix1 e)) := by
  rw [val_main_v50_apply, idx1_eq e (idx_main_v50 (ix2 e 0)) rfl, val_main_v49_apply, val_main_v46_apply,
    val_main_v48_apply, val_main_v45_apply, val_main_v47_apply, val_main_c_11_apply, val_main_c_12_apply]
  rfl
theorem sources3 (e : Fin 4000000) : val_main_v64 (F := Ideal) x2 x3 (ix2 e 0) = wrapped (val_main_v5 (F := Ideal) x2 x3 (ix1 e)) := by
  rw [val_main_v64_apply, idx1_eq e (idx_main_v64 (ix2 e 0)) rfl, val_main_v63_apply, val_main_v60_apply,
    val_main_v62_apply, val_main_v59_apply, val_main_v61_apply, val_main_c_14_apply, val_main_c_15_apply]
  rfl

/-! ## The spread weights -/
theorem weights1 (e : Fin 4000000) (k : Fin 64) : val_main_v38 (F := Ideal) x2 x3 (ix2 e k) = val_main_v28 (F := Ideal) x2 x3 (ix1 e) := by
  rw [val_main_v38_apply, idx2_eq e (idx_main_v38 (ix2 e k)) rfl, val_main_v30_apply]
  exact congrArg _ (idx1_eq e _ rfl)
theorem weights2 (e : Fin 4000000) (k : Fin 64) : val_main_v52 (F := Ideal) x2 x3 (ix2 e k) = val_main_v28 (F := Ideal) x2 x3 (ix1 e) := by
  rw [val_main_v52_apply, idx2_eq e (idx_main_v52 (ix2 e k)) rfl, val_main_v44_apply]
  exact congrArg _ (idx1_eq e _ rfl)
theorem weights3 (e : Fin 4000000) (k : Fin 64) : val_main_v66 (F := Ideal) x2 x3 (ix2 e k) = val_main_v28 (F := Ideal) x2 x3 (ix1 e) := by
  rw [val_main_v66_apply, idx2_eq e (idx_main_v66 (ix2 e k)) rfl, val_main_v58_apply]
  exact congrArg _ (idx1_eq e _ rfl)

/-! ## The zero tables -/
theorem zero1 : val_main_v40 (F := Ideal) = fun _ => (0 : EReal) := by
  funext i
  rw [val_main_v40_apply, val_main_cst_10_apply, Ideal.ofBits_def, Ideal.ofBits_zero_f32]
theorem zero2 : val_main_v54 (F := Ideal) = fun _ => (0 : EReal) := by
  funext i
  rw [val_main_v54_apply, val_main_cst_13_apply, Ideal.ofBits_def, Ideal.ofBits_zero_f32]
theorem zero3 : val_main_v68 (F := Ideal) = fun _ => (0 : EReal) := by
  funext i
  rw [val_main_v68_apply, val_main_cst_16_apply, Ideal.ofBits_def, Ideal.ofBits_zero_f32]

/-! ## The closing division -/

/-- Dividing by the constant four (the word `0x40800000`) is multiplying by the constant one quarter (the word
    `0x3E800000`), on every extended real. -/
theorem mean_apply (i : S1000000x64.Idx) :
    val_main_v73 (F := Ideal) x0 x1 x2 x3 i
      = FloatOps.mulf (val_main_v71 (F := Ideal) x0 x1 x2 x3 i) (Scalar.ofBits (F := Ideal) .f32 0x3E800000#32) := by
  rw [val_main_v73_apply, val_main_v72_apply, val_main_cst_17_apply, Ideal.hostDivf_def, Ideal.ofBits_def, ofBits_four,
    Ideal.div_coe (by norm_num)]
  show _ = _ * Ideal.ofBits .f32 0x3E800000#32
  rw [ofBits_quarter]

end Cert.ReferenceIdeal.Layers

end
-- ==== Proof.PaddedLists.lean ====
import proofs.«155642_j85753317032076_1_alg».proof.Proof.HostInputs
import proofs.«155642_j85753317032076_1_alg».proof.Proof.Pointwise
import proofs.«155642_j85753317032076_1_alg».proof.Proof.WrapIndex
import Idealize.ShloMosaic.Lib.ValueIdx
import Idealize.ShloMosaic.Lib.Pipeline.Value
import Idealize.ShloMosaic.PureOps.Ideal.Laws

/-! # The padded edge lists, entry by entry

The program pads its three edge lists — targets, sources, weights — with 5888 trailing entries (index 0, weight 0) and
lays them out as columns `[4005888, 1]`. This file reads those columns at an entry: on the first 4000000 edges they are
the unpadded lists (the sources wrapped), on the appended edges the weight is zero; and it reads the scaled edge rows and
the zero table at an entry, over the extended reals. -/

noncomputable section

namespace Cert.KernelIdeal.Padded

open Idealize.ShloMosaic Idealize.ShloMosaic.ValueIdx Cert.KernelIdeal Cert.KernelIdeal.Host Cert.KernelIdeal.Pointwise Cert.WrapIndex

/-! ## Layout operations of these shapes read at an entry -/

/-- A list laid out as a column `[4005888, 1]`, read at row `e`, is the list at `e`. -/
theorem column_apply {α : Type} (hb : Shape.BroadcastsInDim S4005888 S4005888x1 ![0]) (x : S4005888.Idx → α)
    (e : Fin 4005888) : broadcastInDim S4005888x1 ![0] hb x (ix2 e 0) = x (ix1 e) :=
  broadcastInDim_apply _ hb x _ (ix1 e) (fun a => match a with
    | ⟨0, _⟩ => by show e.val = if (4005888 : Nat) = 1 then 0 else e.val; rw [if_neg (by decide)])

/-- A scalar spread over a shape, read anywhere, is the scalar. -/
theorem scalar_apply {α : Type} {t : Shape} (hb : Shape.BroadcastsInDim S_ t ![]) (x : S_.Idx → α) (j : t.Idx) :
    broadcastInDim t ![] hb x j = x (fun a => a.elim0) :=
  broadcastInDim_apply _ hb x j _ (fun a => a.elim0)

/-- A list of 4000000 entries followed by 5888 more, read among the first 4000000, is the first list there. -/
theorem pad_apply_left {α : Type} (hc : Shape.Concatenates [S4000000, S5888] S4005888 0) (x₁ : S4000000.Idx → α)
    (x₂ : S5888.Idx → α) (e : Fin 4000000) (he : e.val < 4005888) :
    concatenate S4005888 0 [⟨S4000000, x₁⟩, ⟨S5888, x₂⟩] hc (ix1 ⟨e.val, he⟩) = x₁ (ix1 e) :=
  concatenate_pair_apply_left (t := S4005888) (s₁ := S4000000) (s₂ := S5888) 0 x₁ x₂ hc (ix1 ⟨e.val, he⟩) rfl (ix1 e)
    (fun b => match b with | ⟨0, _⟩ => rfl)

/-- A list of 4000000 entries followed by 5888 more, read at or past 4000000, is the second list 4000000 places
    earlier. -/
theorem pad_apply_right {α : Type} (hc : Shape.Concatenates [S4000000, S5888] S4005888 0) (x₁ : S4000000.Idx → α)
    (x₂ : S5888.Idx → α) (e : Fin 4005888) (he : 4000000 ≤ e.val) :
    concatenate S4005888 0 [⟨S4000000, x₁⟩, ⟨S5888, x₂⟩] hc (ix1 e)
      = x₂ (ix1 ⟨e.val - 4000000, by have := e.isLt; omega⟩) :=
  concatenate_pair_apply_right (t := S4005888) (s₁ := S4000000) (s₂ := S5888) 0 x₁ x₂ hc (ix1 e) rfl rfl
    (ix1 ⟨e.val - 4000000, by have := e.isLt; omega⟩)
    (fun b hb => match b, hb with | ⟨0, _⟩, hb => absurd rfl hb)
    (by show e.val - 4000000 + 4000000 = e.val; omega)

/-- A comparison of two lists of words, read at an entry, compares the entries. -/
theorem cmpi_apply {s : Shape} {w : Nat} (p : CmpIPredicate) (a b : IVec s w) (i : s.Idx) :
    cmpi p a b i = IntOp.cmpi p (a i) (b i) := rfl

/-- A sum of two lists of words, read at an entry, adds the entries. -/
theorem addi_apply {s : Shape} {w : Nat} (a b : IVec s w) (i : s.Idx) : addi a b i = IntOp.addi (a i) (b i) := rfl

/-- The padded index list among the first 4000000 entries is the list. -/
theorem padIdx_apply (r : IVec S4000000 32) (e : Fin 4000000) (h : e.val < 4005888) :
    padIdx r (ix1 ⟨e.val, h⟩) = r (ix1 e) := by
  unfold padIdx
  exact pad_apply_left _ _ _ e h

/-- The padded target column on one of the first 4000000 edges is the target list there. -/
theorem targets_apply (rows : IVec S4000000 32) (e : Fin 4000000) (h : e.val < 4005888) :
    asColumn (padIdx rows) (ix2 ⟨e.val, h⟩ 0) = rows (ix1 e) := by
  unfold asColumn
  rw [column_apply, padIdx_apply]

/-- The padded, wrapped source column on one of the first 4000000 edges is the source list there, wrapped. -/
theorem sources_apply (cols : IVec S4000000 32) (e : Fin 4000000) (h : e.val < 4005888) :
    wrappedColumn (padIdx cols) (ix2 ⟨e.val, h⟩ 0) = wrapped (cols (ix1 e)) := by
  unfold wrappedColumn
  rw [column_apply]
  rw [select_apply, cmpi_apply, addi_apply, scalar_apply, scalar_apply, padIdx_apply]
  rfl

/-- The padded weight column on one of the first 4000000 edges is the weight list there. -/
theorem weights_apply (vals : FVec Ideal S4000000 .f32) (e : Fin 4000000) (h : e.val < 4005888) :
    padWeights (F := Ideal) vals (ix2 ⟨e.val, h⟩ 0) = vals (ix1 e) := by
  unfold padWeights
  rw [column_apply, pad_apply_left]

/-- The padded weight column on an appended edge is zero. -/
theorem weights_pad (vals : FVec Ideal S4000000 .f32) (e : Fin 4005888) (he : 4000000 ≤ e.val) :
    padWeights (F := Ideal) vals (ix2 e 0) = (0 : EReal) := by
  unfold padWeights
  rw [column_apply, pad_apply_right _ _ _ e he, scalar_apply, constant_apply, Ideal.ofBits_zero_f32]

/-- An entry of the scaled edge rows is the row's entry times the row's weight. -/
theorem scaled_apply (g : FVec Ideal S4005888x64 .f32) (wv : FVec Ideal S4005888x1 .f32) (e : Fin 4005888) (k : Fin 64) :
    scaled (F := Ideal) g wv (ix2 e k) = g (ix2 e k) * wv (ix2 e 0) := by
  have hc : arrCol (ix2 e k) = ix2 e 0 :=
    funext fun b => Fin.ext (by match b with | ⟨0, _⟩ => rfl | ⟨1, _⟩ => rfl)
  show FloatOps.mulf (g (ix2 e k)) (wv (arrCol (ix2 e k))) = _
  rw [hc, Ideal.mulf_def]

/-- The table an accumulating scatter starts from is zero everywhere. -/
theorem zeroRows_eq : zeroRows (F := Ideal) = fun _ => (0 : EReal) := by
  funext i
  unfold zeroRows
  rw [scalar_apply, constant_apply, Ideal.ofBits_zero_f32]

end Cert.KernelIdeal.Padded

end
-- ==== Proof.LibSegmentScatter.lean ====
import Idealize.ShloMosaic.Lib.ValueIdx
import Idealize.ShloMosaic.Lib.StableHlo.Predicate
import Idealize.ShloMosaic.PureOps.Ideal.Laws

/-! # Segment gathers and accumulating scatters by a column of start indices, read at an index

The message passing of a graph layer moves rows between a table of `N` rows and a list of `E` edges through ONE column
`[E, 1]` of start indices: the gather copies, for each edge, the table's row at the edge's index; the scatter-add sums,
into each row of the table, the edges' rows whose index is that row. This file reads both at an index, for every
extent `N`, `E`, `C`, in the two layouts a program prints: rows `[N, C]` ↔ `[E, C]` (axis 0 indexed, axis 1 carried whole as
the window / offset axis) and entries `[N]` ↔ `[E]` (no window axis).

* The GATHER reads its start index SIGNED and CLAMPS it into the table: entry `(e, k)` of the result is the table's at
  row `min idx[e,0] (N − 1)` (a negative index reads row 0) and column `k` (`gather_rows_apply`, `gather_entries_apply`).
* The SCATTER-ADD reads its start index SIGNED and does NOT clamp it: update `(e, k')` lands at `(v, k)` exactly when
  `idx[e,0] = v` as integers and `k' = k` (`rows_resultIdx?_eq_some_iff`, `entries_resultIdx?_eq_some_iff`), so over the
  extended reals entry `(v, k)` of the result is the operand's plus `Σ_e [idx[e,0] = v] · upd[e, k]`; an update whose index
  is negative or ≥ `N` meets no `v` and adds nothing (`scatterAdd_rows_apply`, `scatterAdd_entries_apply`).

Each family of dimension numbers is a record built from its well-formedness alone (`rowScatterDims`, `entryScatterDims`,
`rowGatherDims`, `entryGatherDims`), so a program's printed record with these numbers IS that record at the program's
extents, and a lemma here applies to it as it stands. Every step is over symbolic extents: nothing is enumerated. -/

noncomputable section

namespace Cert.LibSegmentScatter

open Idealize.ShloMosaic Idealize.ShloMosaic.ValueIdx
open scoped BigOperators

/-! ## The row scatter-add: a [N, C] operand, [E, 1] start indices, [E, C] updates -/

/-- The dimension numbers of a row scatter: the updates' axis 1 is the window axis, the operand's axis 0 is inserted
    and indexed by the one component of the start index, which sits on axis 1 of the start indices. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k' : Fin C)

/-- On the indexed axis the window starts at the edge's start index, read signed. -/
theorem rows_start_zero : (rowScatterDims N E C wf).start (ix2 e k') idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e k') ⟨List.idxOf (0 : Fin 2) (rowScatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the carried axis the window starts at 0. -/
theorem rows_start_one : (rowScatterDims N E C wf).start (ix2 e k') idx 1 = 0 := by
  unfold ScatterDims.start
  rw [dif_neg (show (1 : Fin 2) ∉ ([0] : List (Fin 2)) by decide)]

/-- The indexed axis is inserted: no window coordinate there. -/
theorem rows_window_zero : (rowScatterDims N E C wf).window (ix2 e k') 0 = 0 := by
  unfold ScatterDims.window
  have h0 : (0 : Fin 2) ∉ (rowScatterDims N E C wf).sKept := fun h =>
    absurd (List.mem_filter.1 h).2 (show ¬ (decide ((0 : Fin 2) ∉ ([0] : List (Fin 2))) = true) by decide)
  rw [dif_neg h0]

/-- On the carried axis the window coordinate is the update's column. -/
theorem rows_window_one : (rowScatterDims N E C wf).window (ix2 e k') 1 = k'.val := by
  unfold ScatterDims.window
  have h1 : (1 : Fin 2) ∈ (rowScatterDims N E C wf).sKept :=
    List.mem_filter.2 ⟨List.mem_finRange _, (show decide ((1 : Fin 2) ∉ ([0] : List (Fin 2))) = true by decide)⟩
  rw [dif_pos h1]
  rfl

/-- An update (e, k') of the row scatter lands at entry (v, k) exactly when its start index, read signed, is v and its
    column is k. -/
theorem rows_resultIdx?_eq_some_iff (v : Fin N) (k : Fin C) :
    (rowScatterDims N E C wf).resultIdx? (ix2 e k') idx = some (ix2 v k)
      ↔ (idx (ix2 e 0)).toInt = (v.val : ℤ) ∧ k' = k := by
  unfold ScatterDims.resultIdx?
  constructor
  · intro h
    split at h
    · rename_i hc
      have h' := Option.some.inj h
      have e0 := congrArg (fun f => (f 0).val) h'
      have e1 := congrArg (fun f => (f 1).val) h'
      have c0 := (hc 0).1
      simp only [rows_start_zero, rows_window_zero, rows_start_one, rows_window_one] at e0 e1 c0
      refine ⟨?_, Fin.ext ?_⟩
      · have : ((v : ℕ) : ℤ) = ((ix2 v k 0 : Fin N) : ℕ) := rfl
        omega
      · have : (k : ℕ) = ((ix2 v k 1 : Fin C) : ℕ) := rfl
        omega
    · exact absurd h (by simp)
  · rintro ⟨hv, rfl⟩
    have hc : ∀ a, 0 ≤ (rowScatterDims N E C wf).start (ix2 e k') idx a + (rowScatterDims N E C wf).window (ix2 e k') a
        ∧ (rowScatterDims N E C wf).start (ix2 e k') idx a + (rowScatterDims N E C wf).window (ix2 e k') a
          < (((⟨2, ![N, C]⟩ : Shape).size a : ℕ) : ℤ) := by
      intro a
      match a with
      | ⟨0, _⟩ =>
        show 0 ≤ (rowScatterDims N E C wf).start (ix2 e k') idx 0 + (rowScatterDims N E C wf).window (ix2 e k') 0
          ∧ (rowScatterDims N E C wf).start (ix2 e k') idx 0 + (rowScatterDims N E C wf).window (ix2 e k') 0 < ((N : ℕ) : ℤ)
        rw [rows_start_zero, rows_window_zero, hv]
        have := v.isLt
        omega
      | ⟨1, _⟩ =>
        show 0 ≤ (rowScatterDims N E C wf).start (ix2 e k') idx 1 + (rowScatterDims N E C wf).window (ix2 e k') 1
          ∧ (rowScatterDims N E C wf).start (ix2 e k') idx 1 + (rowScatterDims N E C wf).window (ix2 e k') 1 < ((C : ℕ) : ℤ)
        rw [rows_start_one, rows_window_one]
        have := k'.isLt
        omega
    rw [dif_pos hc]
    congr 1
    funext a
    refine Fin.ext ?_
    match a with
    | ⟨0, _⟩ =>
      show ((rowScatterDims N E C wf).start (ix2 e k') idx 0 + (rowScatterDims N E C wf).window (ix2 e k') 0).toNat = v.val
      rw [rows_start_zero, rows_window_zero, hv]
      omega
    | ⟨1, _⟩ =>
      show ((rowScatterDims N E C wf).start (ix2 e k') idx 1 + (rowScatterDims N E C wf).window (ix2 e k') 1).toNat = k'.val
      rw [rows_start_one, rows_window_one]
      omega

end Rows

/-- THE ROW SCATTER-ADD READ AT (v, k): the operand's entry plus the updates' column k over the edges whose start index,
    read signed, is v. -/
theorem scatterAdd_rows_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (v : Fin N) (k : Fin C) :
    Ideal.hostScatterAdd (rowScatterDims N E C wf) x idx upd (ix2 v k)
      = x (ix2 v k) + ∑ e : Fin E, if (idx (ix2 e 0)).toInt = (v.val : ℤ) then upd (ix2 e k) else 0 := by
  unfold Ideal.hostScatterAdd
  congr 1
  rw [Finset.sum_filter, sum_idx2]
  refine Finset.sum_congr rfl fun e _ => ?_
  simp only [rows_resultIdx?_eq_some_iff]
  by_cases hv : (idx (ix2 e 0)).toInt = (v.val : ℤ)
  · simp only [hv, true_and, Finset.sum_ite_eq', Finset.mem_univ, if_true]
  · simp only [hv, false_and, if_false, Finset.sum_const_zero]

/-! ## The entry scatter-add: a [N] operand, [E, 1] start indices, [E] updates -/

/-- The dimension numbers of an entry scatter: no window axis; the operand's one axis is inserted and indexed. -/
abbrev entryScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, ix1, fun i => (eq_ix1 i).symm, fun _ => rfl⟩ _ _ (fun i => ?_)
  exact congrArg f (eq_ix1 i)

section Entries
variable {N E w : Nat} (wf : ScatterDims.WF ⟨1, ![N]⟩ ⟨2, ![E, 1]⟩ ⟨1, ![E]⟩ [] [0] [0] 1)
  (idx : IVec ⟨2, ![E, 1]⟩ w) (e : Fin E)

/-- The window starts at the edge's start index, read signed. -/
theorem entries_start : (entryScatterDims N E wf).start (ix1 e) idx 0 = (idx (ix2 e 0)).toInt := by
  unfold ScatterDims.start
  rw [dif_pos (show (0 : Fin 1) ∈ (entryScatterDims N E wf).scatterDimsToOperandDims from List.mem_singleton.mpr rfl)]
  have hsi : (entryScatterDims N E wf).siIdx (ix1 e) ⟨List.idxOf (0 : Fin 1) (entryScatterDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The one axis is inserted: no window coordinate. -/
theorem entries_window : (entryScatterDims N E wf).window (ix1 e) 0 = 0 := by
  unfold ScatterDims.window
  have h0 : (0 : Fin 1) ∉ (entryScatterDims N E wf).sKept := fun h =>
    absurd (List.mem_filter.1 h).2 (show ¬ (decide ((0 : Fin 1) ∉ ([0] : List (Fin 1))) = true) by decide)
  rw [dif_neg h0]

/-- An update e of the entry scatter lands at entry v exactly when its start index, read signed, is v. -/
theorem entries_resultIdx?_eq_some_iff (v : Fin N) :
    (entryScatterDims N E wf).resultIdx? (ix1 e) idx = some (ix1 v) ↔ (idx (ix2 e 0)).toInt = (v.val : ℤ) := by
  unfold ScatterDims.resultIdx?
  constructor
  · intro h
    split at h
    · rename_i hc
      have h' := Option.some.inj h
      have e0 := congrArg (fun f => (f 0).val) h'
      have c0 := (hc 0).1
      simp only [entries_start, entries_window] at e0 c0
      have : ((v : ℕ) : ℤ) = ((ix1 v 0 : Fin N) : ℕ) := rfl
      omega
    · exact absurd h (by simp)
  · intro hv
    have hc : ∀ a, 0 ≤ (entryScatterDims N E wf).start (ix1 e) idx a + (entryScatterDims N E wf).window (ix1 e) a
        ∧ (entryScatterDims N E wf).start (ix1 e) idx a + (entryScatterDims N E wf).window (ix1 e) a
          < (((⟨1, ![N]⟩ : Shape).size a : ℕ) : ℤ) := by
      intro a
      match a with
      | ⟨0, _⟩ =>
        show 0 ≤ (entryScatterDims N E wf).start (ix1 e) idx 0 + (entryScatterDims N E wf).window (ix1 e) 0
          ∧ (entryScatterDims N E wf).start (ix1 e) idx 0 + (entryScatterDims N E wf).window (ix1 e) 0 < ((N : ℕ) : ℤ)
        rw [entries_start, entries_window, hv]
        have := v.isLt
        omega
    rw [dif_pos hc]
    congr 1
    funext a
    refine Fin.ext ?_
    match a with
    | ⟨0, _⟩ =>
      show ((entryScatterDims N E wf).start (ix1 e) idx 0 + (entryScatterDims N E wf).window (ix1 e) 0).toNat = v.val
      rw [entries_start, entries_window, hv]
      omega

end Entries

/-- THE ENTRY SCATTER-ADD READ AT v: the operand's entry plus the updates over the edges whose start index, read signed,
    is v. -/
theorem scatterAdd_entries_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (v : Fin N) :
    Ideal.hostScatterAdd (entryScatterDims N E wf) x idx upd (ix1 v)
      = x (ix1 v) + ∑ e : Fin E, if (idx (ix2 e 0)).toInt = (v.val : ℤ) then upd (ix1 e) else 0 := by
  unfold Ideal.hostScatterAdd
  congr 1
  rw [Finset.sum_filter, sum_idx1]
  refine Finset.sum_congr rfl fun e _ => ?_
  simp only [entries_resultIdx?_eq_some_iff]

/-! ## The row gather and the entry gather -/

/-- The dimension numbers of a row gather: the operand's axis 0 is collapsed and indexed (slice size 1), its axis 1 is
    taken whole (slice size C) onto the result's offset axis 1. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, k): the table at the row `idx[e,0]` read signed and clamped into `[0, N − 1]`, column k. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have h1 : (1 : Fin 2) ∈ (rowGatherDims N E C wf).sKept :=
      (GatherDims.mem_sKept _ _).mpr ⟨show (1 : Fin 2) ∉ ([0] : List (Fin 2)) by decide, List.not_mem_nil⟩
    unfold GatherDims.start GatherDims.offCoord
    rw [dif_neg (show (1 : Fin 2) ∉ ([0] : List (Fin 2)) by decide), dif_pos h1]
    simp only [Nat.add_zero, Nat.zero_add]
    rfl

/-- The dimension numbers of an entry gather: the operand's one axis is collapsed and indexed; no offset axis. -/
abbrev entryGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER READ AT e: the table at `idx[e,0]` read signed and clamped into `[0, N − 1]`. -/
theorem gather_entries_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryGatherDims N E wf) x idx (ix1 e)
      = x (ix1 ⟨min (idx (ix2 e 0)).toInt.toNat (N - 1), by omega⟩) := by
  unfold Host.gather
  congr 1
  funext a
  refine Fin.ext ?_
  match a with
  | ⟨0, _⟩ =>
    show (entryGatherDims N E wf).start (ix1 e) idx 0 + (entryGatherDims N E wf).batchCoord (ix1 e) 0
      + (entryGatherDims N E wf).offCoord (ix1 e) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entryGatherDims N E wf).startIndexMap from List.mem_singleton.mpr rfl)]
    have hsi : (entryGatherDims N E wf).siIdx (ix1 e) ⟨List.idxOf (0 : Fin 1) (entryGatherDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Cert.LibSegmentScatter

end
-- ==== Proof.LayerPad.lean ====
import proofs.«155642_j85753317032076_1_alg».proof.Proof.LibSegmentScatter

/-! # A message-passing layer is unchanged by trailing edges of weight zero

One layer of the propagation sends, along every edge `e`, the source row `x[col e]` scaled by the edge's weight into the
target row `row e`, and sums what arrives: entry `(v, k)` of the result is `Σ_{e : row e = v} wt e · x[col e, k]`.
Appending `P` edges whose weight is `0` (whatever their source and target) adds `x[..] · 0 = 0` to some rows and so
changes nothing; nor does it matter on which side of the product the weight stands. This file states that for the
host's accumulating scatter and its row gather, over symbolic extents: `N` rows of `C` columns, `E` edges, `EP = E + P`
edges after the padding. -/

noncomputable section

namespace Cert.LayerPad

open Idealize.ShloMosaic Idealize.ShloMosaic.ValueIdx Cert.LibSegmentScatter
open scoped BigOperators

/-- THE PADDED LAYER IS THE LAYER. The padded side scatters, by the start indices `rowP`, updates `updP` whose entry
    `(e, k)` is the gathered source entry TIMES the edge's weight `wtP (e, 0)`; the plain side scatters, by `row`, the
    product `wt · gather`. The two agree when the first `E` edges of the padded lists are the plain lists and the
    weights of the appended edges are zero. -/
theorem scatter_gather_pad_eq {N E P EP C : Nat} (hEP : EP = E + P) (hN : 0 < N)
    (wfS : ScatterDims.WF ⟨2, ![N, C]⟩ ⟨2, ![E, 1]⟩ ⟨2, ![E, C]⟩ [1] [0] [0] 1)
    (wfSP : ScatterDims.WF ⟨2, ![N, C]⟩ ⟨2, ![EP, 1]⟩ ⟨2, ![EP, C]⟩ [1] [0] [0] 1)
    (wfG : GatherDims.WF ⟨2, ![N, C]⟩ ⟨2, ![E, 1]⟩ ⟨2, ![E, C]⟩ [1] [0] [] [0] [] 1 ![1, C])
    (wfGP : GatherDims.WF ⟨2, ![N, C]⟩ ⟨2, ![EP, 1]⟩ ⟨2, ![EP, C]⟩ [1] [0] [] [0] [] 1 ![1, C])
    (x z zP : (⟨2, ![N, C]⟩ : Shape).Idx → EReal) (hz : zP = z)
    (row col : IVec ⟨2, ![E, 1]⟩ 32) (rowP colP : IVec ⟨2, ![EP, 1]⟩ 32)
    (hrow : ∀ (e : Fin E) (h : e.val < EP), rowP (ix2 ⟨e.val, h⟩ 0) = row (ix2 e 0))
    (hcol : ∀ (e : Fin E) (h : e.val < EP), colP (ix2 ⟨e.val, h⟩ 0) = col (ix2 e 0))
    (wt : (⟨2, ![E, C]⟩ : Shape).Idx → EReal) (wtP : (⟨2, ![EP, 1]⟩ : Shape).Idx → EReal)
    (hwt : ∀ (e : Fin E) (h : e.val < EP) (k : Fin C), wt (ix2 e k) = wtP (ix2 ⟨e.val, h⟩ 0))
    (hwt0 : ∀ e : Fin EP, E ≤ e.val → wtP (ix2 e 0) = 0)
    (updP : (⟨2, ![EP, C]⟩ : Shape).Idx → EReal)
    (hupdP : ∀ (e : Fin EP) (k : Fin C),
      updP (ix2 e k) = Host.gather (rowGatherDims N EP C wfGP) x colP (ix2 e k) * wtP (ix2 e 0)) :
    Ideal.hostScatterAdd (rowScatterDims N EP C wfSP) zP rowP updP
      = Ideal.hostScatterAdd (rowScatterDims N E C wfS) z row
          (fun i => wt i * Host.gather (rowGatherDims N E C wfG) x col i) := by
  subst hEP
  subst hz
  funext i
  obtain ⟨v, k, rfl⟩ : ∃ (v : Fin N) (k : Fin C), i = ix2 v k := ⟨i 0, i 1, eq_ix2 i⟩
  rw [scatterAdd_rows_apply, scatterAdd_rows_apply]
  congr 1
  rw [Fin.sum_univ_add]
  -- the appended edges carry weight zero: each of their terms is `x · 0 = 0`
  have htail : ∑ e : Fin P, (if (rowP (ix2 (Fin.natAdd E e) 0)).toInt = (v.val : ℤ)
      then updP (ix2 (Fin.natAdd E e) k) else 0) = 0 := by
    refine Finset.sum_eq_zero fun e _ => ?_
    rw [hupdP, hwt0 (Fin.natAdd E e) (Nat.le_add_right E e.val), mul_zero, ite_self]
  rw [htail, add_zero]
  -- the first `E` edges are the plain edges
  refine Finset.sum_congr rfl fun e _ => ?_
  have h : e.val < E + P := Nat.lt_add_right P e.isLt
  have he : Fin.castAdd P e = ⟨e.val, h⟩ := Fin.ext rfl
  rw [he, hrow e h, hupdP, gather_rows_apply hN, gather_rows_apply hN, ← hwt e h k]
  simp only [hcol e h]
  rw [mul_comm]

end Cert.LayerPad

end
-- ==== Proof.Bridge.lean ====
import proofs.«155642_j85753317032076_1_alg».proof.Proof.KernelValue
import proofs.«155642_j85753317032076_1_alg».proof.Proof.ReferenceLayers
import proofs.«155642_j85753317032076_1_alg».proof.Proof.PaddedLists
import proofs.«155642_j85753317032076_1_alg».proof.Proof.LayerPad
import proofs.«155642_j85753317032076_1_alg».proof.Proof.Gen.ReferenceIdeal.Read

/-! # The program's mean of propagated layers is the reference's

Both programs build the same symmetrized edge lists and edge weights from the id lists and the same table of node rows
from the two embedding tables (the same host operations, word for word). The reference runs each propagation layer on the
4000000 edges; the program pads the lists to 4005888 edges of which the appended ones carry weight zero, scales on the
other side of the product, and so computes the same layer (`Cert.LayerPad.scatter_gather_pad_eq`). Three layers, three
sums and the closing quarter — the reference's division by four — then agree entry by entry over the extended reals. -/

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal.Gen Cert.KernelIdeal.Host Cert.KernelIdeal.Pointwise Cert.KernelIdeal.Chain Cert.KernelIdeal.Padded
open Cert.ReferenceIdeal.Read Cert.ReferenceIdeal.Layers
open Cert.LibSegmentScatter Cert.LayerPad Cert.WrapIndex

/-! ## One layer -/

/-- The program's accumulating scatter is the row scatter-add at its extents. -/
theorem program_scatter (z : FVec Ideal Cert.KernelIdeal.S1000000x64 .f32) (idx : IVec Cert.KernelIdeal.S4005888x1 32)
    (upd : FVec Ideal Cert.KernelIdeal.S4005888x64 .f32) :
    Host.scatterAdd Cert.KernelIdeal.scatter_S1000000x64_S4005888x1_S4005888x64_1_0_0_1 z idx upd
      = Ideal.hostScatterAdd (rowScatterDims 1000000 4005888 64
          Cert.KernelIdeal.Facts₀.scatter_S1000000x64_S4005888x1_S4005888x64_1_0_0_1_wf) z idx upd := rfl

/-- The reference's accumulating scatter is the row scatter-add at its extents, its updates a product entry by entry. -/
theorem reference_scatter (z : FVec Ideal Cert.ReferenceIdeal.S1000000x64 .f32) (idx : IVec Cert.ReferenceIdeal.S4000000x1 32)
    (wt g : FVec Ideal Cert.ReferenceIdeal.S4000000x64 .f32) :
    Host.scatterAdd Cert.ReferenceIdeal.scatter_S1000000x64_S4000000x1_S4000000x64_1_0_0_1 z idx (mulf wt g)
      = Ideal.hostScatterAdd (rowScatterDims 1000000 4000000 64
          Cert.ReferenceIdeal.Facts₀.scatter_S1000000x64_S4000000x1_S4000000x64_1_0_0_1_wf) z idx (fun i => wt i * g i) := rfl

/-- The program's row gather is the row gather at its extents. -/
theorem program_gather (x : FVec Ideal Cert.KernelIdeal.S1000000x64 .f32) (idx : IVec Cert.KernelIdeal.S4005888x1 32) :
    Host.gather Cert.KernelIdeal.gather_S1000000x64_S4005888x1_S4005888x64_1_0_n_n_0_1_164 x idx
      = Host.gather (rowGatherDims 1000000 4005888 64
          Cert.KernelIdeal.Facts₀.gather_S1000000x64_S4005888x1_S4005888x64_1_0_n_n_0_1_164_wf) x idx := rfl

/-- The reference's row gather is the row gather at its extents. -/
theorem reference_gather (x : FVec Ideal Cert.ReferenceIdeal.S1000000x64 .f32) (idx : IVec Cert.ReferenceIdeal.S4000000x1 32) :
    Host.gather Cert.ReferenceIdeal.gather_S1000000x64_S4000000x1_S4000000x64_1_0_n_n_0_1_164 x idx
      = Host.gather (rowGatherDims 1000000 4000000 64
          Cert.ReferenceIdeal.Facts₀.gather_S1000000x64_S4000000x1_S4000000x64_1_0_n_n_0_1_164_wf) x idx := rfl

/-- ONE LAYER on the padded lists is the reference's scatter of weighted gathered rows, whenever the reference's target
    column, wrapped source column, spread weights and zero table read, entry by entry, as the unpadded lists do. -/
theorem layer_eq (rows cols : IVec Cert.KernelIdeal.S4000000 32) (vals : FVec Ideal Cert.KernelIdeal.S4000000 .f32)
    (x : FVec Ideal Cert.KernelIdeal.S1000000x64 .f32)
    (zR : FVec Ideal Cert.ReferenceIdeal.S1000000x64 .f32) (hz : zR = fun _ => (0 : EReal))
    (rowR colR : IVec Cert.ReferenceIdeal.S4000000x1 32) (wtR : FVec Ideal Cert.ReferenceIdeal.S4000000x64 .f32)
    (hrow : ∀ e : Fin 4000000, rowR (ix2 e 0) = rows (ix1 e))
    (hcol : ∀ e : Fin 4000000, colR (ix2 e 0) = wrapped (cols (ix1 e)))
    (hwt : ∀ (e : Fin 4000000) (k : Fin 64), wtR (ix2 e k) = vals (ix1 e)) :
    layer (F := Ideal) (padIdx rows) (padIdx cols) (padWeights vals) x
      = Host.scatterAdd Cert.ReferenceIdeal.scatter_S1000000x64_S4000000x1_S4000000x64_1_0_0_1 zR rowR
          (mulf wtR (Host.gather Cert.ReferenceIdeal.gather_S1000000x64_S4000000x1_S4000000x64_1_0_n_n_0_1_164 x colR)) := by
  unfold layer scatterRows gatherRows
  rw [program_scatter, reference_scatter, program_gather, reference_gather]
  exact scatter_gather_pad_eq (N := 1000000) (E := 4000000) (P := 5888) (EP := 4005888) (C := 64) (by omega) (by omega)
    Cert.ReferenceIdeal.Facts₀.scatter_S1000000x64_S4000000x1_S4000000x64_1_0_0_1_wf
    Cert.KernelIdeal.Facts₀.scatter_S1000000x64_S4005888x1_S4005888x64_1_0_0_1_wf
    Cert.ReferenceIdeal.Facts₀.gather_S1000000x64_S4000000x1_S4000000x64_1_0_n_n_0_1_164_wf
    Cert.KernelIdeal.Facts₀.gather_S1000000x64_S4005888x1_S4005888x64_1_0_n_n_0_1_164_wf
    x zR (zeroRows (F := Ideal)) (zeroRows_eq.trans hz.symm)
    rowR colR (asColumn (padIdx rows)) (wrappedColumn (padIdx cols))
    (fun e h => (targets_apply rows e h).trans (hrow e).symm)
    (fun e h => (sources_apply cols e h).trans (hcol e).symm)
    wtR (padWeights vals)
    (fun e h k => (hwt e k).trans (weights_apply vals e h).symm)
    (fun e he => weights_pad vals e he)
    _ (fun e k => scaled_apply _ _ e k)

/-! ## Three layers, their sum, the mean -/

variable (x0 : (⟨Cert.ReferenceIdeal.S600000x64, .f32⟩ : BufTy).Contents (Elt Ideal)) (x1 : (⟨Cert.ReferenceIdeal.S400000x64, .f32⟩ : BufTy).Contents (Elt Ideal))
variable (x2 x3 : (⟨Cert.ReferenceIdeal.S2000000, .i32⟩ : BufTy).Contents (Elt Ideal))

theorem first_layer : layer (F := Ideal) (padIdx (val_main_v2 (F := Ideal) x2 x3)) (padIdx (val_main_v5 (F := Ideal) x2 x3))
      (padWeights (val_main_v28 (F := Ideal) x2 x3)) (val_main_v29 (F := Ideal) x0 x1)
    = val_main_v42 (F := Ideal) x0 x1 x2 x3 := by
  unfold val_main_v42 val_main_v39 val_main_v37
  exact layer_eq _ _ _ _ _ zero1 _ _ _ (targets1 x2 x3) (sources1 x2 x3) (weights1 x2 x3)

theorem second_layer : layer (F := Ideal) (padIdx (val_main_v2 (F := Ideal) x2 x3)) (padIdx (val_main_v5 (F := Ideal) x2 x3))
      (padWeights (val_main_v28 (F := Ideal) x2 x3)) (val_main_v42 (F := Ideal) x0 x1 x2 x3)
    = val_main_v56 (F := Ideal) x0 x1 x2 x3 := by
  unfold val_main_v56 val_main_v53 val_main_v51
  exact layer_eq _ _ _ _ _ zero2 _ _ _ (targets2 x2 x3) (sources2 x2 x3) (weights2 x2 x3)

theorem third_layer : layer (F := Ideal) (padIdx (val_main_v2 (F := Ideal) x2 x3)) (padIdx (val_main_v5 (F := Ideal) x2 x3))
      (padWeights (val_main_v28 (F := Ideal) x2 x3)) (val_main_v56 (F := Ideal) x0 x1 x2 x3)
    = val_main_v70 (F := Ideal) x0 x1 x2 x3 := by
  unfold val_main_v70 val_main_v67 val_main_v65
  exact layer_eq _ _ _ _ _ zero3 _ _ _ (targets3 x2 x3) (sources3 x2 x3) (weights3 x2 x3)

/-- The program's mean of the table and its three layers is the reference's sum divided by four. -/
theorem propagated_eq : propagated (F := Ideal) (padIdx (val_main_v2 (F := Ideal) x2 x3)) (padIdx (val_main_v5 (F := Ideal) x2 x3))
      (padWeights (val_main_v28 (F := Ideal) x2 x3)) (val_main_v29 (F := Ideal) x0 x1)
    = val_main_v73 (F := Ideal) x0 x1 x2 x3 := by
  unfold propagated
  rw [first_layer, second_layer, third_layer]
  funext i
  rw [mean_apply]
  unfold val_main_v71 val_main_v57 val_main_v43
  rfl

/-! ## The launch memory -/

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The padded targets the first launch finds are the reference's targets, padded. -/
theorem found_targets : W1 m ρ c (Proc.devRef .tc Cert.KernelIdeal.main_v31)
    = padIdx (val_main_v2 (F := Ideal) (m ((c.tc : Thread Cert.KernelIdeal.nD Cert.KernelIdeal.τ).loc Cert.KernelIdeal.main_arg2))
        (m ((c.tc : Thread Cert.KernelIdeal.nD Cert.KernelIdeal.τ).loc Cert.KernelIdeal.main_arg3))) := by
  refine (input_targets (W0 m ρ c)).trans (congrArg padIdx ?_)
  unfold targets
  after_results_simp
  rfl

/-- The padded sources the first launch finds are the reference's sources, padded. -/
theorem found_sources : W1 m ρ c (Proc.devRef .tc Cert.KernelIdeal.main_v32)
    = padIdx (val_main_v5 (F := Ideal) (m ((c.tc : Thread Cert.KernelIdeal.nD Cert.KernelIdeal.τ).loc Cert.KernelIdeal.main_arg2))
        (m ((c.tc : Thread Cert.KernelIdeal.nD Cert.KernelIdeal.τ).loc Cert.KernelIdeal.main_arg3))) := by
  refine (input_sources (W0 m ρ c)).trans (congrArg padIdx ?_)
  unfold sources
  after_results_simp
  rfl

set_option maxHeartbeats 4000000 in
/-- The padded weights the first launch finds are the reference's weights, padded. -/
theorem found_weights : W1 m ρ c (Proc.devRef .tc Cert.KernelIdeal.main_v34)
    = padWeights (F := Ideal) (val_main_v28 (F := Ideal) (m ((c.tc : Thread Cert.KernelIdeal.nD Cert.KernelIdeal.τ).loc Cert.KernelIdeal.main_arg2))
        (m ((c.tc : Thread Cert.KernelIdeal.nD Cert.KernelIdeal.τ).loc Cert.KernelIdeal.main_arg3))) := by
  refine (input_weights (W0 m ρ c)).trans (congrArg (padWeights (F := Ideal)) ?_)
  unfold weights
  after_results_simp
  rfl

/-- The table of node rows the first launch finds is the reference's. -/
theorem found_table : W1 m ρ c (Proc.devRef .tc Cert.KernelIdeal.main_v35)
    = val_main_v29 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) := by
  refine (input_table (W0 m ρ c)).trans ?_
  unfold table val_main_v29
  rfl

/-! ## The two results -/

/-- The program's user rows are the reference's. -/
theorem users_value : W14 m ρ c (Proc.devRef .tc Cert.KernelIdeal.main_v73)
    = val_main_v74 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) := by
  rw [users_eq, found_targets, found_sources, found_weights, found_table, propagated_eq]
  unfold val_main_v74
  rfl

/-- The program's item rows are the reference's. -/
theorem items_value : W14 m ρ c (Proc.devRef .tc Cert.KernelIdeal.main_v74)
    = val_main_v75 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) := by
  rw [items_eq, found_targets, found_sources, found_weights, found_table, propagated_eq]
  unfold val_main_v75
  rfl

end Cert.Bridge

end
-- ==== Proof.lean ====
/- The kernel computes a LightGCN-style mean of propagated embeddings: from the user and item id lists it builds the
   symmetrized edge lists and the symmetric-normalization weight of every edge, then three times replaces the table of node
   rows `x` by `Σ_{e : target e = v} weight e · x[source e]`, adds the three tables to the starting one and multiplies by one
   quarter. The gathers and the accumulating scatters are host operations; the edge scaling, the running sum and the final
   quarter are tiled launches, the edge lists padded with 5888 edges of weight zero so that 8192-row tiles fit. The reference
   does the same on the unpadded lists with host operations only and divides by four.
   The frames of the two printed kernels are the generated ones; the reference's is its generated run. Nothing was rewritten
   by the idealization, so `preserves` is trivial. For `algebraic`: the kernel's run is read with its two results named
   (Proof/KernelRun.lean), the results are walked back through the launches and host stretches to one function of the padded
   lists (Proof/KernelValue.lean), and that function is the reference's, layer by layer, because an appended edge of weight
   zero adds `x · 0 = 0` and a product commutes (Proof/LayerPad.lean, Proof/Bridge.lean). No fact about finiteness is used:
   the laws are `a · 0 = 0`, commutativity of the product, and `a / 4 = a · (1/4)`, all of which hold on the extended reals. -/
import proofs.«155642_j85753317032076_1_alg».proof.Defs
import proofs.«155642_j85753317032076_1_alg».proof.Proof.Gen.Kernel
import proofs.«155642_j85753317032076_1_alg».proof.Proof.Gen.Kernel.Frame
import proofs.«155642_j85753317032076_1_alg».proof.Proof.Gen.KernelIdeal
import proofs.«155642_j85753317032076_1_alg».proof.Proof.Gen.KernelIdeal.Frame
import proofs.«155642_j85753317032076_1_alg».proof.Proof.Gen.ReferenceIdeal
import proofs.«155642_j85753317032076_1_alg».proof.Proof.Gen.ReferenceIdeal.Run
import proofs.«155642_j85753317032076_1_alg».proof.Proof.Gen.ReferenceIdeal.Read
import proofs.«155642_j85753317032076_1_alg».proof.Proof.Gen.Pre_finite_inputs
import proofs.«155642_j85753317032076_1_alg».proof.Proof.KernelRun
import proofs.«155642_j85753317032076_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- Both runs end with the user rows and the item rows of the reference's mean, read at the kernel's arguments. -/
theorem algebraic : Cert.algebraic_KernelIdeal_ReferenceIdeal := by
  intro m ρ m' ρ' _ hagree
  refine ⟨fun c => Cert.ReferenceIdeal.Read.val_main_v74 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
    fun c => Cert.ReferenceIdeal.Read.val_main_v75 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.Bridge.users_value m ρ c), (h c).2.1.trans (Cert.Bridge.items_value m ρ c), (h c).2.2⟩)
      (Cert.KernelIdeal.Run.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v74_eq, (hagree c).1, (hagree c).2.1, (hagree c).2.2.1, (hagree c).2.2.2]
    · rw [Cert.ReferenceIdeal.Read.val_main_v75_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
